-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x10 : Shape := ⟨2, ![256, 10]⟩
abbrev S256 : Shape := ⟨1, ![256]⟩
abbrev S100000x64 : Shape := ⟨2, ![100000, 64]⟩
abbrev S2x1200000 : Shape := ⟨2, ![2, 1200000]⟩
abbrev S100000 : Shape := ⟨1, ![100000]⟩
abbrev S_ : Shape := ⟨0, ![]⟩

class Facts : Prop where
  bcast_S_S256x10 : S_.BroadcastsInDim S256x10 (![] : Fin 0 → Fin S256x10.rank)
  reducesTo_S256x10_S_d0_1 : S256x10.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S256x10 .f32) (main_arg1 : IVec S256 32) (main_arg2 : FVec F S100000x64 .f32) (main_arg3 : IVec S2x1200000 32) (main_arg4 : IVec S100000 32) : IVec S_ 1 :=
  let main_v0 : FVec F S256x10 .f32 := Host.absf main_arg0
  let main_cst : FVec F S_ .f32 := constant S_ .f32 0x7F800000#32
  let main_v1 : FVec F S256x10 .f32 := broadcastInDim S256x10 ![] bcast_S_S256x10 main_cst
  let main_v2 : IVec S256x10 1 := cmpf .olt main_v0 main_v1
  let main_c : IVec S_ 1 := constantI S_ 1 1#1
  let main_v3 : IVec S_ 1 := (fun x v => Host.reduce IntOp.andi x v reducesTo_S256x10_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S256x10 : Shape := ⟨2, ![256, 10]⟩
abbrev S256 : Shape := ⟨1, ![256]⟩
abbrev S100000x64 : Shape := ⟨2, ![100000, 64]⟩
abbrev S2x1200000 : Shape := ⟨2, ![2, 1200000]⟩
abbrev S100000 : Shape := ⟨1, ![100000]⟩
abbrev S_ : Shape := ⟨0, ![]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩
abbrev S1200000x2 : Shape := ⟨2, ![1200000, 2]⟩
abbrev S2x2x256 : Shape := ⟨3, ![2, 2, 256]⟩
abbrev S8000x2 : Shape := ⟨2, ![8000, 2]⟩
abbrev S1x2x256 : Shape := ⟨3, ![1, 2, 256]⟩
abbrev S2x256 : Shape := ⟨2, ![2, 256]⟩
abbrev S8000x1 : Shape := ⟨2, ![8000, 1]⟩
abbrev S8000x256 : Shape := ⟨2, ![8000, 256]⟩
abbrev S1x256 : Shape := ⟨2, ![1, 256]⟩

abbrev nBuf : Space → Nat
  | .hbm => 147
  | .vmem => 4
  | .smem => 0
  | _ => 0

abbrev hbmTy0_0 (i : Nat) : BufTy := match i % 128 with
  | 0 => ⟨S256x10, .f32⟩
  | 1 => ⟨S256, .i32⟩
  | 2 => ⟨S100000x64, .f32⟩
  | 3 => ⟨S2x1200000, .i32⟩
  | 4 => ⟨S100000, .i32⟩
  | 5 => ⟨S_, .f32⟩
  | 6 => ⟨S256, .f32⟩
  | 7 => ⟨S_, .f32⟩
  | 8 => ⟨S256, .f32⟩
  | 9 => ⟨S256, .f32⟩
  | 10 => ⟨S256x1, .f32⟩
  | 11 => ⟨S256x10, .f32⟩
  | 12 => ⟨S256x10, .f32⟩
  | 13 => ⟨S256x10, .f32⟩
  | 14 => ⟨S_, .f32⟩
  | 15 => ⟨S256, .f32⟩
  | 16 => ⟨S256x1, .f32⟩
  | 17 => ⟨S256x1, .f32⟩
  | 18 => ⟨S256x10, .f32⟩
  | 19 => ⟨S256x10, .f32⟩
  | 20 => ⟨S256x1, .i32⟩
  | 21 => ⟨S_, .i32⟩
  | 22 => ⟨S256x1, .i32⟩
  | 23 => ⟨S256x1, .i1⟩
  | 24 => ⟨S_, .i32⟩
  | 25 => ⟨S256x1, .i32⟩
  | 26 => ⟨S256x1, .i32⟩
  | 27 => ⟨S256x1, .i32⟩
  | 28 => ⟨S256x1x1, .i32⟩
  | 29 => ⟨S1, .i32⟩
  | 30 => ⟨S_, .i32⟩
  | 31 => ⟨S256x1x1, .i32⟩
  | 32 => ⟨S256x1x1, .i1⟩
  | 33 => ⟨S1x1x1, .i32⟩
  | 34 => ⟨S256x1x1, .i32⟩
  | 35 => ⟨S256x1x1, .i1⟩
  | 36 => ⟨S256x1x1, .i1⟩
  | 37 => ⟨S_, .i1⟩
  | 38 => ⟨S256x1, .i1⟩
  | 39 => ⟨S256x1, .f32⟩
  | 40 => ⟨S_, .f32⟩
  | 41 => ⟨S256x1, .f32⟩
  | 42 => ⟨S256x1, .f32⟩
  | 43 => ⟨S_, .f32⟩
  | 44 => ⟨S_, .f32⟩
  | 45 => ⟨S_, .f32⟩
  | 46 => ⟨S_, .f32⟩
  | 47 => ⟨S_, .f32⟩
  | 48 => ⟨S1x1200000, .i32⟩
  | 49 => ⟨S1200000, .i32⟩
  | 50 => ⟨S1x1200000, .i32⟩
  | 51 => ⟨S1200000, .i32⟩
  | 52 => ⟨S_, .f32⟩
  | 53 => ⟨S1200000, .f32⟩
  | 54 => ⟨S_, .f32⟩
  | 55 => ⟨S100000, .f32⟩
  | 56 => ⟨S1200000x1, .i32⟩
  | 57 => ⟨S100000, .f32⟩
  | 58 => ⟨S_, .f32⟩
  | 59 => ⟨S100000, .f32⟩
  | 60 => ⟨S100000, .i1⟩
  | 61 => ⟨S_, .f32⟩
  | 62 => ⟨S100000, .f32⟩
  | 63 => ⟨S100000, .i1⟩
  | 64 => ⟨S_, .f32⟩
  | 65 => ⟨S_, .f32⟩
  | 66 => ⟨S100000, .f32⟩
  | 67 => ⟨S100000, .f32⟩
  | 68 => ⟨S100000, .f32⟩
  | 69 => ⟨S_, .f32⟩
  | 70 => ⟨S_, .f32⟩
  | 71 => ⟨S100000, .f32⟩
  | 72 => ⟨S100000, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000x64, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000x64, .f32⟩
  | 91 => ⟨S1200000x64, .f32⟩
  | 92 => ⟨S1200000x64, .f32⟩
  | 93 => ⟨S_, .f32⟩
  | 94 => ⟨S1200000, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000, .f32⟩
  | 113 => ⟨S1200000, .f32⟩
  | 114 => ⟨S_, .i32⟩
  | 115 => ⟨S1200000, .i32⟩
  | 116 => ⟨S1200000, .i1⟩
  | 117 => ⟨S_, .i32⟩
  | 118 => ⟨S1200000, .i32⟩
  | 119 => ⟨S1200000, .i32⟩
  | 120 => ⟨S1200000, .i32⟩
  | 121 => ⟨S1200000x1, .i32⟩
  | 122 => ⟨S1200000, .i32⟩
  | 123 => ⟨S1200000, .f32⟩
  | 124 => ⟨S1200000, .f32⟩
  | 125 => ⟨S1200000x1, .f32⟩
  | 126 => ⟨S1200000x1, .f32⟩
  | 127 => ⟨S1200000x2, .f32⟩
  | _ => ⟨S256x10, .f32⟩

abbrev hbmTy0_1 (i : Nat) : BufTy := match i % 128 with
  | 0 => ⟨S2x2x256, .f32⟩
  | 1 => ⟨S_, .f32⟩
  | 2 => ⟨S2x256, .f32⟩
  | 3 => ⟨S1x256, .f32⟩
  | 4 => ⟨S256, .f32⟩
  | 5 => ⟨S1x256, .f32⟩
  | 6 => ⟨S256, .f32⟩
  | 7 => ⟨S_, .f32⟩
  | 8 => ⟨S_, .f32⟩
  | 9 => ⟨S256, .f32⟩
  | 10 => ⟨S256, .f32⟩
  | 11 => ⟨S256, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S256x10, .f32⟩

abbrev hbmTy (i : Nat) : BufTy := match i / 128 with
  | 0 => hbmTy0_0 i
  | 1 => hbmTy0_1 i
  | _ => ⟨S256x10, .f32⟩

abbrev bufTy : (tb : Table) → Fin (tcTables nBuf tb) → BufTy
  | .hbm, ⟨i, _⟩ => hbmTy i
  | .local _ .vmem, ⟨0, _⟩ => ⟨S8000x2, .f32⟩
  | .local _ .vmem, ⟨1, _⟩ => ⟨S8000x2, .f32⟩
  | .local _ .vmem, ⟨2, _⟩ => ⟨S1x2x256, .f32⟩
  | .local _ .vmem, ⟨3, _⟩ => ⟨S1x2x256, .f32⟩
  | _, _ => ⟨S256x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_cst_4 : Ref sig .tc := ⟨.hbm, 61, rfl⟩
abbrev main_v16 : Ref sig .tc := ⟨.hbm, 62, rfl⟩
abbrev main_v17 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_v18 : Ref sig .tc := ⟨.hbm, 67, rfl⟩
abbrev main_v19 : Ref sig .tc := ⟨.hbm, 68, rfl⟩
abbrev main_cst_6 : Ref sig .tc := ⟨.hbm, 69, rfl⟩
abbrev main_call3_v0 : Ref sig .tc := ⟨.hbm, 70, rfl⟩
abbrev main_call3_v1 : Ref sig .tc := ⟨.hbm, 71, rfl⟩
abbrev main_v20 : Ref sig .tc := ⟨.hbm, 72, rfl⟩
abbrev main_c : Ref sig .tc := ⟨.hbm, 73, rfl⟩
abbrev main_v21 : Ref sig .tc := ⟨.hbm, 74, rfl⟩
abbrev main_v22 : Ref sig .tc := ⟨.hbm, 75, rfl⟩
abbrev main_c_7 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_c_8 : Ref sig .tc := ⟨.hbm, 82, rfl⟩
abbrev main_v28 : Ref sig .tc := ⟨.hbm, 83, rfl⟩
abbrev main_v29 : Ref sig .tc := ⟨.hbm, 84, rfl⟩
abbrev main_c_9 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_10 : Ref sig .tc := ⟨.hbm, 93, rfl⟩
abbrev main_v37 : Ref sig .tc := ⟨.hbm, 94, rfl⟩
abbrev main_c_11 : Ref sig .tc := ⟨.hbm, 95, rfl⟩
abbrev main_v38 : Ref sig .tc := ⟨.hbm, 96, rfl⟩
abbrev main_v39 : Ref sig .tc := ⟨.hbm, 97, rfl⟩
abbrev main_c_12 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_c_13 : Ref sig .tc := ⟨.hbm, 104, rfl⟩
abbrev main_v45 : Ref sig .tc := ⟨.hbm, 105, rfl⟩
abbrev main_v46 : Ref sig .tc := ⟨.hbm, 106, rfl⟩
abbrev main_c_14 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_c_15 : Ref sig .tc := ⟨.hbm, 114, rfl⟩
abbrev main_v53 : Ref sig .tc := ⟨.hbm, 115, rfl⟩
abbrev main_v54 : Ref sig .tc := ⟨.hbm, 116, rfl⟩
abbrev main_c_16 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_cst_17 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_cst_18 : Ref sig .tc := ⟨.hbm, 135, rfl⟩
abbrev main_call4_v0 : Ref sig .tc := ⟨.hbm, 136, rfl⟩
abbrev main_call4_v1 : Ref sig .tc := ⟨.hbm, 137, rfl⟩
abbrev main_v71 : Ref sig .tc := ⟨.hbm, 138, rfl⟩
abbrev main_v72 : Ref sig .tc := ⟨.hbm, 139, rfl⟩
abbrev main_cst_19 : Ref sig .tc := ⟨.hbm, 140, rfl⟩
abbrev main_v73 : Ref sig .tc := ⟨.hbm, 141, rfl⟩
abbrev main_cst_20 : Ref sig .tc := ⟨.hbm, 142, rfl⟩
abbrev main_v74 : Ref sig .tc := ⟨.hbm, 143, rfl⟩
abbrev main_cst_21 : Ref sig .tc := ⟨.hbm, 144, rfl⟩
abbrev main_v75 : Ref sig .tc := ⟨.hbm, 145, rfl⟩
abbrev main_v76 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 75], ![false, false]⟩

def cc0_transform_0 (i : grid0.Coords) : Fin 2 → Nat :=
  let arg0 : BitVec 32 := BitVec.ofNat 32 (i 0).val
  let arg1 : BitVec 32 := BitVec.ofNat 32 (i 1).val
  let c75_i32 : BitVec 32 := 75#32
  let v0 : BitVec 32 := Scalar.muli arg0 c75_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  reducesTo_S256x10_S256_d1 : S256x10.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  reducesTo_S1200000x64_S1200000_d1 : S1200000x64.ReducesTo [1] S1200000
  concatenates_S1200000x1_S1200000x1_S1200000x2_d1 : Shape.Concatenates [S1200000x1, S1200000x1] S1200000x2 1
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  shapeCasts_S2x256_S1x2x256 : S2x256.ShapeCasts S1x2x256
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  slices_S8000x2_o0_0_S8000x1 : S8000x2.Slices ![0, 0] S8000x1
  slices_S8000x2_o0_1_S8000x1 : S8000x2.Slices ![0, 1] S8000x1
  concatenates_S8000x1_S8000x1_S8000x2_d1 : Shape.Concatenates [S8000x1, S8000x1] S8000x2 1
  iota_S8000x256_d1_w32 : S8000x256.Iotas .tc 32 [1]
  broadcasts_S8000x1_S8000x256 : S8000x1.Broadcasts S8000x256
  natLt_1_32 : 1 < 32
  bitsLt_bf16_f32 : FTy.bits .bf16 < FTy.bits .f32
  reducesTo_S2x2x256_S2x256_d0 : S2x2x256.ReducesTo [0] S2x256
  slices_S2x256_S1x256_0_0 : S2x256.Slices ![0, 0] S1x256
  shapeCasts_S1x256_S256 : S1x256.ShapeCasts S256
  slices_S2x256_S1x256_1_0 : S2x256.Slices ![1, 0] S1x256
  reducesTo_S256_S_d0 : S256.ReducesTo [0] S_
  gather_S256x10_S256x1x1_S256x1_n_1_0_0_1_2_11_wf : GatherDims.WF S256x10 S256x1x1 S256x1 [] [1] [0] [1] [0] 2 ![1, 1]
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  gather_S100000_S1200000x1_S1200000_n_0_n_n_0_1_1_wf : GatherDims.WF S100000 S1200000x1 S1200000 [] [0] [] [0] [] 1 ![1]
  dot_S8000x2_S8000x256_S2x256_0_0_1_1_n_n_wf : DotDims.WF S8000x2 S8000x256 S2x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S1200000x2.size a
  hwx0_0 : ∀ i : grid0.Coords, EltTy.bits .f32 = 32 ∨ (Rect.block (s := S1200000x2) S8000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256.size a ≤ S2x2x256.size a
  hwx0_1 : ∀ i : grid0.Coords, EltTy.bits .f32 = 32 ∨ (Rect.block (s := S2x2x256) S1x2x256.size (cc0_transform_1 i) (hinb0_1 i)).WholeWords (EltTy.packing .f32)

variable [Facts₀]

def gather_S256x10_S256x1x1_S256x1_n_1_0_0_1_2_11 : GatherDims S256x10 S256x1x1 S256x1 where
  offsetDims := []
  collapsedSliceDims := [1]
  operandBatchingDims := [0]
  startIndicesBatchingDims := [0]
  startIndexMap := [1]
  indexVectorDim := 2
  sliceSizes := ![1, 1]
  wf := gather_S256x10_S256x1x1_S256x1_n_1_0_0_1_2_11_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S8000x2_S8000x256_S2x256_0_0_1_1_n_n : DotDims S8000x2 S8000x256 S2x256 where
  lhsContracting := [0]
  rhsContracting := [0]
  lhsNonContracting := [1]
  rhsNonContracting := [1]
  lhsBatch := []
  rhsBatch := []
  wf := dot_S8000x2_S8000x256_S2x256_0_0_1_1_n_n_wf

abbrev win0_0 : Pipeline.Window sig grid0 :=
  Pipeline.Window.ofSpec (Memref.whole main_v64) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S1x2x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x10 : Shape := ⟨2, ![256, 10]⟩
abbrev S256 : Shape := ⟨1, ![256]⟩
abbrev S100000x64 : Shape := ⟨2, ![100000, 64]⟩
abbrev S2x1200000 : Shape := ⟨2, ![2, 1200000]⟩
abbrev S100000 : Shape := ⟨1, ![100000]⟩
abbrev S_ : Shape := ⟨0, ![]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩

abbrev nBuf : Space → Nat
  | .hbm => 144
  | .vmem => 0
  | .smem => 0
  | _ => 0

abbrev hbmTy0_0 (i : Nat) : BufTy := match i % 128 with
  | 0 => ⟨S256x10, .f32⟩
  | 1 => ⟨S256, .i32⟩
  | 2 => ⟨S100000x64, .f32⟩
  | 3 => ⟨S2x1200000, .i32⟩
  | 4 => ⟨S100000, .i32⟩
  | 5 => ⟨S_, .f32⟩
  | 6 => ⟨S256, .f32⟩
  | 7 => ⟨S_, .f32⟩
  | 8 => ⟨S256, .f32⟩
  | 9 => ⟨S256, .f32⟩
  | 10 => ⟨S256x1, .f32⟩
  | 11 => ⟨S256x10, .f32⟩
  | 12 => ⟨S256x10, .f32⟩
  | 13 => ⟨S256x10, .f32⟩
  | 14 => ⟨S_, .f32⟩
  | 15 => ⟨S256, .f32⟩
  | 16 => ⟨S256x1, .f32⟩
  | 17 => ⟨S256x1, .f32⟩
  | 18 => ⟨S256x10, .f32⟩
  | 19 => ⟨S256x10, .f32⟩
  | 20 => ⟨S256x1, .i32⟩
  | 21 => ⟨S_, .i32⟩
  | 22 => ⟨S256x1, .i32⟩
  | 23 => ⟨S256x1, .i1⟩
  | 24 => ⟨S_, .i32⟩
  | 25 => ⟨S256x1, .i32⟩
  | 26 => ⟨S256x1, .i32⟩
  | 27 => ⟨S256x1, .i32⟩
  | 28 => ⟨S256x1x1, .i32⟩
  | 29 => ⟨S1, .i32⟩
  | 30 => ⟨S_, .i32⟩
  | 31 => ⟨S256x1x1, .i32⟩
  | 32 => ⟨S256x1x1, .i1⟩
  | 33 => ⟨S1x1x1, .i32⟩
  | 34 => ⟨S256x1x1, .i32⟩
  | 35 => ⟨S256x1x1, .i1⟩
  | 36 => ⟨S256x1x1, .i1⟩
  | 37 => ⟨S_, .i1⟩
  | 38 => ⟨S256x1, .i1⟩
  | 39 => ⟨S256x1, .f32⟩
  | 40 => ⟨S_, .f32⟩
  | 41 => ⟨S256x1, .f32⟩
  | 42 => ⟨S256x1, .f32⟩
  | 43 => ⟨S_, .f32⟩
  | 44 => ⟨S_, .f32⟩
  | 45 => ⟨S_, .f32⟩
  | 46 => ⟨S_, .f32⟩
  | 47 => ⟨S_, .f32⟩
  | 48 => ⟨S1x1200000, .i32⟩
  | 49 => ⟨S1200000, .i32⟩
  | 50 => ⟨S1x1200000, .i32⟩
  | 51 => ⟨S1200000, .i32⟩
  | 52 => ⟨S_, .f32⟩
  | 53 => ⟨S1200000, .f32⟩
  | 54 => ⟨S_, .f32⟩
  | 55 => ⟨S100000, .f32⟩
  | 56 => ⟨S1200000x1, .i32⟩
  | 57 => ⟨S100000, .f32⟩
  | 58 => ⟨S_, .f32⟩
  | 59 => ⟨S100000, .f32⟩
  | 60 => ⟨S100000, .i1⟩
  | 61 => ⟨S_, .f32⟩
  | 62 => ⟨S100000, .f32⟩
  | 63 => ⟨S100000, .i1⟩
  | 64 => ⟨S_, .f32⟩
  | 65 => ⟨S_, .f32⟩
  | 66 => ⟨S100000, .f32⟩
  | 67 => ⟨S100000, .f32⟩
  | 68 => ⟨S100000, .f32⟩
  | 69 => ⟨S_, .f32⟩
  | 70 => ⟨S_, .f32⟩
  | 71 => ⟨S100000, .f32⟩
  | 72 => ⟨S100000, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000, .f32⟩
  | 91 => ⟨S1200000, .f32⟩
  | 92 => ⟨S_, .i32⟩
  | 93 => ⟨S1200000, .i32⟩
  | 94 => ⟨S1200000, .i1⟩
  | 95 => ⟨S_, .i32⟩
  | 96 => ⟨S1200000, .i32⟩
  | 97 => ⟨S1200000, .i32⟩
  | 98 => ⟨S1200000, .i32⟩
  | 99 => ⟨S1200000x1, .i32⟩
  | 100 => ⟨S1200000x64, .f32⟩
  | 101 => ⟨S_, .i32⟩
  | 102 => ⟨S1200000, .i32⟩
  | 103 => ⟨S1200000, .i1⟩
  | 104 => ⟨S_, .i32⟩
  | 105 => ⟨S1200000, .i32⟩
  | 106 => ⟨S1200000, .i32⟩
  | 107 => ⟨S1200000, .i32⟩
  | 108 => ⟨S1200000x1, .i32⟩
  | 109 => ⟨S1200000x64, .f32⟩
  | 110 => ⟨S1200000x64, .f32⟩
  | 111 => ⟨S1200000x64, .f32⟩
  | 112 => ⟨S_, .f32⟩
  | 113 => ⟨S1200000, .f32⟩
  | 114 => ⟨S1200000, .f32⟩
  | 115 => ⟨S_, .i32⟩
  | 116 => ⟨S1200000, .i32⟩
  | 117 => ⟨S1200000, .i1⟩
  | 118 => ⟨S_, .i32⟩
  | 119 => ⟨S1200000, .i32⟩
  | 120 => ⟨S1200000, .i32⟩
  | 121 => ⟨S1200000, .i32⟩
  | 122 => ⟨S1200000x1, .i32⟩
  | 123 => ⟨S1200000, .i32⟩
  | 124 => ⟨S_, .f32⟩
  | 125 => ⟨S256, .f32⟩
  | 126 => ⟨S1200000x1, .i32⟩
  | 127 => ⟨S256, .f32⟩
  | _ => ⟨S256x10, .f32⟩

abbrev hbmTy0_1 (i : Nat) : BufTy := match i % 128 with
  | 0 => ⟨S_, .f32⟩
  | 1 => ⟨S256, .f32⟩
  | 2 => ⟨S1200000x1, .i32⟩
  | 3 => ⟨S256, .f32⟩
  | 4 => ⟨S_, .f32⟩
  | 5 => ⟨S_, .f32⟩
  | 6 => ⟨S256, .f32⟩
  | 7 => ⟨S256, .f32⟩
  | 8 => ⟨S256, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S256x10, .f32⟩

abbrev hbmTy (i : Nat) : BufTy := match i / 128 with
  | 0 => hbmTy0_0 i
  | 1 => hbmTy0_1 i
  | _ => ⟨S256x10, .f32⟩

abbrev bufTy : (tb : Table) → Fin (tcTables nBuf tb) → BufTy
  | .hbm, ⟨i, _⟩ => hbmTy i
  | _, _ => ⟨S256x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_cst_4 : Ref sig .tc := ⟨.hbm, 61, rfl⟩
abbrev main_v16 : Ref sig .tc := ⟨.hbm, 62, rfl⟩
abbrev main_v17 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_v18 : Ref sig .tc := ⟨.hbm, 67, rfl⟩
abbrev main_v19 : Ref sig .tc := ⟨.hbm, 68, rfl⟩
abbrev main_cst_6 : Ref sig .tc := ⟨.hbm, 69, rfl⟩
abbrev main_call3_v0 : Ref sig .tc := ⟨.hbm, 70, rfl⟩
abbrev main_call3_v1 : Ref sig .tc := ⟨.hbm, 71, rfl⟩
abbrev main_v20 : Ref sig .tc := ⟨.hbm, 72, rfl⟩
abbrev main_c : Ref sig .tc := ⟨.hbm, 73, rfl⟩
abbrev main_v21 : Ref sig .tc := ⟨.hbm, 74, rfl⟩
abbrev main_v22 : Ref sig .tc := ⟨.hbm, 75, rfl⟩
abbrev main_c_7 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_c_8 : Ref sig .tc := ⟨.hbm, 82, rfl⟩
abbrev main_v28 : Ref sig .tc := ⟨.hbm, 83, rfl⟩
abbrev main_v29 : Ref sig .tc := ⟨.hbm, 84, rfl⟩
abbrev main_c_9 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_c_10 : Ref sig .tc := ⟨.hbm, 92, rfl⟩
abbrev main_v36 : Ref sig .tc := ⟨.hbm, 93, rfl⟩
abbrev main_v37 : Ref sig .tc := ⟨.hbm, 94, rfl⟩
abbrev main_c_11 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_c_12 : Ref sig .tc := ⟨.hbm, 101, rfl⟩
abbrev main_v43 : Ref sig .tc := ⟨.hbm, 102, rfl⟩
abbrev main_v44 : Ref sig .tc := ⟨.hbm, 103, rfl⟩
abbrev main_c_13 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_14 : Ref sig .tc := ⟨.hbm, 112, rfl⟩
abbrev main_v52 : Ref sig .tc := ⟨.hbm, 113, rfl⟩
abbrev main_v53 : Ref sig .tc := ⟨.hbm, 114, rfl⟩
abbrev main_c_15 : Ref sig .tc := ⟨.hbm, 115, rfl⟩
abbrev main_v54 : Ref sig .tc := ⟨.hbm, 116, rfl⟩
abbrev main_v55 : Ref sig .tc := ⟨.hbm, 117, rfl⟩
abbrev main_c_16 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_17 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_18 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_19 : Ref sig .tc := ⟨.hbm, 132, rfl⟩
abbrev main_call4_v0 : Ref sig .tc := ⟨.hbm, 133, rfl⟩
abbrev main_call4_v1 : Ref sig .tc := ⟨.hbm, 134, rfl⟩
abbrev main_v67 : Ref sig .tc := ⟨.hbm, 135, rfl⟩
abbrev main_v68 : Ref sig .tc := ⟨.hbm, 136, rfl⟩
abbrev main_cst_20 : Ref sig .tc := ⟨.hbm, 137, rfl⟩
abbrev main_v69 : Ref sig .tc := ⟨.hbm, 138, rfl⟩
abbrev main_cst_21 : Ref sig .tc := ⟨.hbm, 139, rfl⟩
abbrev main_v70 : Ref sig .tc := ⟨.hbm, 140, rfl⟩
abbrev main_cst_22 : Ref sig .tc := ⟨.hbm, 141, rfl⟩
abbrev main_v71 : Ref sig .tc := ⟨.hbm, 142, rfl⟩
abbrev main_v72 : Ref sig .tc := ⟨.hbm, 143, rfl⟩

abbrev nD : Nat := 1
abbrev τ : Topo := Topo.v7x

variable {F : FTy → Type} [FloatOps F]

class Facts₀ : Prop where
  reducesTo_S256x10_S256_d1 : S256x10.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  reducesTo_S1200000x64_S1200000_d1 : S1200000x64.ReducesTo [1] S1200000
  reducesTo_S256_S_d0 : S256.ReducesTo [0] S_
  gather_S256x10_S256x1x1_S256x1_n_1_0_0_1_2_11_wf : GatherDims.WF S256x10 S256x1x1 S256x1 [] [1] [0] [1] [0] 2 ![1, 1]
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S256_S1200000x1_S1200000_n_0_0_1_wf : ScatterDims.WF S256 S1200000x1 S1200000 [] [0] [0] 1

variable [Facts₀]

def gather_S256x10_S256x1x1_S256x1_n_1_0_0_1_2_11 : GatherDims S256x10 S256x1x1 S256x1 where
  offsetDims := []
  collapsedSliceDims := [1]
  operandBatchingDims := [0]
  startIndicesBatchingDims := [0]
  startIndexMap := [1]
  indexVectorDim := 2
  sliceSizes := ![1, 1]
  wf := gather_S256x10_S256x1x1_S256x1_n_1_0_0_1_2_11_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S256_S1200000x1_S1200000_n_0_0_1 : ScatterDims S256 S1200000x1 S1200000 where
  updateWindowDims := []
  insertedWindowDims := [0]
  scatterDimsToOperandDims := [0]
  indexVectorDim := 1
  wf := scatter_S256_S1200000x1_S1200000_n_0_0_1_wf

class Facts : Prop extends Facts₀ where

variable [Facts]
-- ==== Proof.KPieces.lean ====
/-
  What one grid point leaves in the out block's staging buffer, as a value, at any float instance.

  At the first tile of a shard (tile number ≡ 0 mod 75) the body stores the zero block, reads it back and stores
  the update over it: the buffer ends at  update(tile, zero block).  At every other tile the body reads what the
  tile before left, `xo`, and stores  update(tile, xo).  Both stores cover the whole [1, 2, 256] block, so the
  buffer's contents afterwards are the last store's payload.
-/
import proofs.«418521_j395136991275_3_alg».proof.Proof.Gen.KernelIdeal.Frame
import Idealize.ShloMosaic.Lib.Pipeline.Value
import Idealize.ShloMosaic.Lib.Tactic

noncomputable section

namespace Cert.KernelIdeal.KValue

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A tile that is not the first of its shard: the block ends at the update of the tile's rows over what it held. -/
theorem out_B (c : Dev nD) (i : grid0.Coords) (a2 : Memref sig .tc .vmem S8000x2 .f32) (h2 : a2.IsWhole)
    (a3 : Memref sig .tc .vmem S1x2x256 .f32) (h3 : a3.IsWhole) (hc : ¬cond0_0 i) (x : Vec F S8000x2 .f32) (xo : Vec F S1x2x256 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  sl_unfold_words
  rw [View.canon_unit_zero hz3]
  simp only [View.readAt_eq_ld, h2.read_unread, h3.read_unread, View.ld_unit_zero (S := S8000x2) hz2, View.ld_unit_zero (S := S1x2x256) hz3]

/-- The first tile of a shard: the block is reset to zero, then updated with the tile's rows. -/
theorem out_A (c : Dev nD) (i : grid0.Coords) (a2 : Memref sig .tc .vmem S8000x2 .f32) (h2 : a2.IsWhole)
    (a3 : Memref sig .tc .vmem S1x2x256 .f32) (h3 : a3.IsWhole) (hc : cond0_0 i) (x : Vec F S8000x2 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x2x256) hz3, View.readCov_unit_zero (S := S1x2x256) _ hz3]
  simp only [View.readAt_eq_ld, h2.read_unread, View.ld_unit_zero (S := S8000x2) hz2]

end Cert.KernelIdeal.KValue

end
-- ==== Proof.KPayload.lean ====
/-
  The kernel body's two stored values, read at one index of the [1, 2, 256] out block, over the extended reals.

  The reset stores the zero block. The update stores  acc + Vᵀ · H  where, for the tile's 8000 rows e,
  V[e, 0] is the packed energy of row e, V[e, 1] = 1, and H[e, g] = 1 when row e's packed segment id — a float
  holding an integer, truncated back to a 32-bit word — is the word of g, else 0. A change of float format is the
  identity here and the matrix product into a zero accumulator is the plain sum over the contracted axis, so at
  (0, r, g) the update is  acc[0, r, g] + ∑ₑ V[e, r] · H[e, g]:  row 0 accumulates the energies of the rows in bin g,
  row 1 counts them.
-/
import proofs.«418521_j395136991275_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx

/-- Column `r` of the tile's value matrix at row `e`: the packed energy (r = 0) or the constant one (r = 1). -/
def rowVal (v3 : Vec Ideal S8000x2 .f32) (r : Fin 2) (e : Fin 8000) : EReal :=
  if r.val = 0 then (v3 (ix2 e (0 : Fin 2)) : EReal) else 1

/-- The one-hot entry: 1 when row `e`'s packed segment id, truncated to a 32-bit word, is the word of `g`. -/
def hotVal (v3 : Vec Ideal S8000x2 .f32) (g : Fin 256) (e : Fin 8000) : EReal :=
  if Ideal.fptosi 32 (v3 (ix2 e (1 : Fin 2)) : EReal) = BitVec.ofNat 32 g.val then 1 else 0

/-- The reset's payload is zero everywhere. -/
theorem pay1_apply (i : S1x2x256.Idx) : (k0_pay1 (F := Ideal) i : EReal) = 0 := by
  show Ideal.ofBits .f32 0x00000000#32 = 0
  exact Ideal.ofBits_zero_f32

/-! ## The update's operations, each read at one index -/

/-- Column 0 of the tile. -/
private theorem col0_apply (x : FVec Ideal S8000x2 .f32) (e : Fin 8000) :
    extractStridedSlice S8000x1 ![0, 0] x slices_S8000x2_o0_0_S8000x1 (ix2 e (0 : Fin 1)) = x (ix2 e (0 : Fin 2)) :=
  slice2_axis1_apply 0 x slices_S8000x2_o0_0_S8000x1 e (0 : Fin 1) (0 : Fin 2) rfl

/-- Column 1 of the tile. -/
private theorem col1_apply (x : FVec Ideal S8000x2 .f32) (e : Fin 8000) :
    extractStridedSlice S8000x1 ![0, 1] x slices_S8000x2_o0_1_S8000x1 (ix2 e (0 : Fin 1)) = x (ix2 e (1 : Fin 2)) :=
  slice2_axis1_apply 1 x slices_S8000x2_o0_1_S8000x1 e (0 : Fin 1) (1 : Fin 2) rfl

/-- Two columns side by side, read in the first. -/
private theorem cat_apply0 (a b : FVec Ideal S8000x1 .f32) (e : Fin 8000) :
    concatenate S8000x2 1 [⟨S8000x1, a⟩, ⟨S8000x1, b⟩] concatenates_S8000x1_S8000x1_S8000x2_d1 (ix2 e (0 : Fin 2))
      = a (ix2 e (0 : Fin 1)) :=
  concatenate_pair_apply_left (1 : Fin S8000x2.rank) a b concatenates_S8000x1_S8000x1_S8000x2_d1 (ix2 e (0 : Fin 2)) rfl
    (ix2 e (0 : Fin 1)) (fun c => by
      match c with
      | ⟨0, _⟩ => rfl
      | ⟨1, _⟩ => rfl)

/-- Two columns side by side, read in the second. -/
private theorem cat_apply1 (a b : FVec Ideal S8000x1 .f32) (e : Fin 8000) :
    concatenate S8000x2 1 [⟨S8000x1, a⟩, ⟨S8000x1, b⟩] concatenates_S8000x1_S8000x1_S8000x2_d1 (ix2 e (1 : Fin 2))
      = b (ix2 e (0 : Fin 1)) :=
  concatenate_pair_apply_right (1 : Fin S8000x2.rank) a b concatenates_S8000x1_S8000x1_S8000x2_d1 (ix2 e (1 : Fin 2)) rfl rfl
    (ix2 e (0 : Fin 1)) (fun c hc => by
      match c, hc with
      | ⟨0, _⟩, _ => rfl
      | ⟨1, _⟩, hc => exact absurd rfl hc) rfl

/-- The column number. -/
private theorem iota_apply (e : Fin 8000) (g : Fin 256) :
    iota .tc S8000x256 32 [1] iota_S8000x256_d1_w32 (ix2 e g) = BitVec.ofNat 32 g.val :=
  iota_single_apply .tc S8000x256 32 1 iota_S8000x256_d1_w32 (ix2 e g)

/-- One column spread over 256. -/
private theorem bcast_apply {α : Type} (x : S8000x1.Idx → α) (e : Fin 8000) (g : Fin 256) :
    broadcastTo S8000x256 x broadcasts_S8000x1_S8000x256 (ix2 e g) = x (ix2 e (0 : Fin 1)) :=
  broadcastTo_apply x broadcasts_S8000x1_S8000x256 (ix2 e g) (ix2 e (0 : Fin 1)) fun a => by
    match a with
    | ⟨0, _⟩ => rfl
    | ⟨1, _⟩ => rfl

/-- An equality test's bit, widened and read as a signed integer, is 1 or 0. -/
private theorem hot_word (a b : BitVec 32) :
    (FloatOps.sitofp (F := Ideal) .f32 ((IntOp.cmpi .eq a b).setWidth 32) : EReal) = if a = b then 1 else 0 := by
  show (((((BitVec.ofBool (a == b)).setWidth 32).toInt : ℤ) : ℝ) : EReal) = _
  by_cases h : a = b
  · have hb : (a == b) = true := by simpa using h
    rw [hb, if_pos h]
    show ((((1#32 : BitVec 32).toInt : ℤ) : ℝ) : EReal) = 1
    rw [show (1#32 : BitVec 32).toInt = 1 by decide, Int.cast_one, EReal.coe_one]
  · have hb : (a == b) = false := by simpa using h
    rw [hb, if_neg h]
    show ((((0#32 : BitVec 32).toInt : ℤ) : ℝ) : EReal) = 0
    rw [show (0#32 : BitVec 32).toInt = 0 by decide, Int.cast_zero, EReal.coe_zero]

/-- The f32 word of one. -/
private theorem one_word : Ideal.ofBits .f32 0x3F800000#32 = 1 := by
  simp [Ideal.ofBits, Ideal.ieee]
  rw [← EReal.coe_mul, ← EReal.coe_one]
  congr 1
  norm_num

/-- The f32 word 0x3F800000 read at the extended reals is one. -/
theorem ofBits_one_f32 : (FloatOps.ofBits (F := Ideal) .f32 0x3F800000#32 : EReal) = 1 := one_word

/-- The one-hot matrix at (e, g): 1 where the row's word is the column number. -/
private theorem hot_apply (w : IVec S8000x1 32) (e : Fin 8000) (g : Fin 256) :
    (truncf .bf16 (sitofp (F := Ideal) .f32 (extui 32 (cmpi .eq (broadcastTo S8000x256 w broadcasts_S8000x1_S8000x256)
        (iota .tc S8000x256 32 [1] iota_S8000x256_d1_w32)) natLt_1_32)) bitsLt_bf16_f32 : FVec Ideal S8000x256 .bf16) (ix2 e g)
      = if w (ix2 e (0 : Fin 1)) = BitVec.ofNat 32 g.val then 1 else 0 := by
  show FloatOps.sitofp (F := Ideal) .f32 ((IntOp.cmpi .eq (broadcastTo S8000x256 w broadcasts_S8000x1_S8000x256 (ix2 e g))
    (iota .tc S8000x256 32 [1] iota_S8000x256_d1_w32 (ix2 e g))).setWidth 32) = _
  rw [bcast_apply, iota_apply, hot_word]

/-! The product's operand indices, axis by axis. -/

private theorem lhs_0 (i : S2x256.Idx) (q : dot_S8000x2_S8000x256_S2x256_0_0_1_1_n_n.contr.Idx) :
    (dot_S8000x2_S8000x256_S2x256_0_0_1_1_n_n.lhsIdx i q 0).val = (q ⟨0, by decide⟩).val :=
  dot_S8000x2_S8000x256_S2x256_0_0_1_1_n_n.lhsIdx_val_of_single rfl i q

private theorem lhs_1 (i : S2x256.Idx) (q : dot_S8000x2_S8000x256_S2x256_0_0_1_1_n_n.contr.Idx) :
    (dot_S8000x2_S8000x256_S2x256_0_0_1_1_n_n.lhsIdx i q 1).val = (i 0).val := by
  unfold DotDims.lhsIdx
  rw [dif_neg (show ¬(1 : Fin S8000x2.rank) ∈ dot_S8000x2_S8000x256_S2x256_0_0_1_1_n_n.lhsBatch by decide),
    dif_pos (show (1 : Fin S8000x2.rank) ∈ dot_S8000x2_S8000x256_S2x256_0_0_1_1_n_n.lhsNonContracting by decide)]
  rfl

private theorem rhs_0 (i : S2x256.Idx) (q : dot_S8000x2_S8000x256_S2x256_0_0_1_1_n_n.contr.Idx) :
    (dot_S8000x2_S8000x256_S2x256_0_0_1_1_n_n.rhsIdx i q 0).val = (q ⟨0, by decide⟩).val :=
  dot_S8000x2_S8000x256_S2x256_0_0_1_1_n_n.rhsIdx_val_of_single rfl i q

private theorem rhs_1 (i : S2x256.Idx) (q : dot_S8000x2_S8000x256_S2x256_0_0_1_1_n_n.contr.Idx) :
    (dot_S8000x2_S8000x256_S2x256_0_0_1_1_n_n.rhsIdx i q 1).val = (i 1).val := by
  unfold DotDims.rhsIdx
  rw [dif_neg (show ¬(1 : Fin S8000x256.rank) ∈ dot_S8000x2_S8000x256_S2x256_0_0_1_1_n_n.rhsBatch by decide),
    dif_pos (show (1 : Fin S8000x256.rank) ∈ dot_S8000x2_S8000x256_S2x256_0_0_1_1_n_n.rhsNonContracting by decide)]
  rfl

/-- The product into the zero block at (r, g): the sum over the 8000 rows. -/
private theorem mm_apply (A : FVec Ideal S8000x2 .bf16) (B : FVec Ideal S8000x256 .bf16) (r : Fin 2) (g : Fin 256) :
    matmul dot_S8000x2_S8000x256_S2x256_0_0_1_1_n_n none A B (constant (F := Ideal) S2x256 .f32 0x00000000#32) (ix2 r g)
      = ∑ e : Fin 8000, A (ix2 e r) * B (ix2 e g) := by
  simp only [matmul]
  rw [Ideal.matmul_constant_zero_apply,
    ← Equiv.sum_comp (contrEquiv1 dot_S8000x2_S8000x256_S2x256_0_0_1_1_n_n 8000 rfl rfl).symm]
  refine Finset.sum_congr rfl fun k _ => ?_
  have hk := contrEquiv1_symm_val dot_S8000x2_S8000x256_S2x256_0_0_1_1_n_n 8000 rfl rfl k
  have el : dot_S8000x2_S8000x256_S2x256_0_0_1_1_n_n.lhsIdx (ix2 r g)
      ((contrEquiv1 dot_S8000x2_S8000x256_S2x256_0_0_1_1_n_n 8000 rfl rfl).symm k) = ix2 k r :=
    funext fun a => Fin.ext (by
      match a with
      | ⟨0, _⟩ => exact (lhs_0 _ _).trans hk
      | ⟨1, _⟩ => exact lhs_1 _ _)
  have er : dot_S8000x2_S8000x256_S2x256_0_0_1_1_n_n.rhsIdx (ix2 r g)
      ((contrEquiv1 dot_S8000x2_S8000x256_S2x256_0_0_1_1_n_n 8000 rfl rfl).symm k) = ix2 k g :=
    funext fun a => Fin.ext (by
      match a with
      | ⟨0, _⟩ => exact (rhs_0 _ _).trans hk
      | ⟨1, _⟩ => exact rhs_1 _ _)
  rw [el, er]

/-- The value matrix at (e, r): the packed energy in column 0, one in column 1. -/
private theorem row_apply (v3 : Vec Ideal S8000x2 .f32) (r : Fin 2) (e : Fin 8000) :
    concatenate S8000x2 1
        [⟨S8000x1, extractStridedSlice S8000x1 ![0, 0] (shapeCast S8000x2 v3 shapeCasts_S8000x2_S8000x2) slices_S8000x2_o0_0_S8000x1⟩,
          ⟨S8000x1, broadcast S8000x1 (Scalar.ofBits (F := Ideal) .f32 0x3F800000#32)⟩]
        concatenates_S8000x1_S8000x1_S8000x2_d1 (ix2 e r)
      = rowVal v3 r e := by
  have hr : r = 0 ∨ r = 1 := by
    rcases r with ⟨_ | _ | n, h⟩
    · exact Or.inl rfl
    · exact Or.inr rfl
    · omega
  rcases hr with rfl | rfl
  · rw [cat_apply0, col0_apply, shapeCast_self]
    exact (if_pos rfl).symm
  · rw [cat_apply1]
    show Ideal.ofBits .f32 0x3F800000#32 = _
    rw [one_word]
    exact (if_neg (by decide)).symm

/-- Row e's segment word: column 1 truncated to a 32-bit integer. -/
private theorem seg_apply (x : FVec Ideal S8000x2 .f32) (e : Fin 8000) :
    fptosi 32 (extractStridedSlice S8000x1 ![0, 1] x slices_S8000x2_o0_1_S8000x1) (ix2 e (0 : Fin 1))
      = Ideal.fptosi 32 (x (ix2 e (1 : Fin 2))) := by
  show Ideal.fptosi 32 (extractStridedSlice S8000x1 ![0, 1] x slices_S8000x2_o0_1_S8000x1 (ix2 e (0 : Fin 1))) = _
  rw [col1_apply]

/-- The update's payload at (0, r, g): what the block held there plus the tile's contribution to bin g. -/
theorem pay2_apply (v3 : Vec Ideal S8000x2 .f32) (v18 : Vec Ideal S1x2x256 .f32) (r : Fin 2) (g : Fin 256) :
    (k0_pay2 (F := Ideal) v3 v18 (ix3 (0 : Fin 1) r g) : EReal)
      = (v18 (ix3 (0 : Fin 1) r g) : EReal) + ∑ e : Fin 8000, rowVal v3 r e * hotVal v3 g e := by
  unfold k0_pay2
  dsimp only
  refine (shapeCast_ab_1ab_apply _ shapeCasts_S2x256_S1x2x256 (0 : Fin 1) r g).trans ?_
  rw [addf_apply, shapeCast_1ab_ab_apply v18 shapeCasts_S1x2x256_S2x256 r g, mm_apply]
  refine congrArg (v18 (ix3 (0 : Fin 1) r g) + ·) (Finset.sum_congr rfl fun e _ => ?_)
  refine congrArg₂ (· * ·) (row_apply v3 r e) ((hot_apply _ e g).trans ?_)
  rw [seg_apply, shapeCast_self]
  rfl

end Cert.KernelIdeal.KValue

end
-- ==== Proof.KAccum.lean ====
/-
  The out block across the grid. Point n = 75 s + k is tile k of shard s. The block is reset at k = 0 and carried
  from point to point inside a shard, so after point 75 s + k it holds, at (0, r, g), the sum over the shard's tiles
  0..k of the tile's contribution to (r, g):  ∑_{k' ≤ k} ∑ₑ V[e, r] · H[e, g]  over tile 75 s + k'.  The order the
  tiles are added in does not matter on the extended reals; the recursion below keeps the order the kernel uses and
  the closed form is proved by induction on k, never by enumerating the 150 points.
-/
import proofs.«418521_j395136991275_3_alg».proof.Proof.KPieces
import proofs.«418521_j395136991275_3_alg».proof.Proof.KPayload
import Mathlib.Algebra.BigOperators.Fin

noncomputable section

namespace Cert.KernelIdeal.KValue

open Idealize.ShloMosaic Idealize.ShloMosaic.TcCoe Idealize.SL.Sem Idealize.ShloMosaic.ValueIdx
open Cert.KernelIdeal Cert.KernelIdeal.Gen

section AnyF
variable {F : FTy → Type} [FloatOps F]
variable (m : (ℓ : Loc nD τ sig) → Buf (Elt F) ℓ)

/-- Tile `t` of the packed [1200000, 2] array as the region finds it: rows 8000 t .. 8000 t + 7999. -/
abbrev tile (c : Dev nD) (t : Fin cfg0.N) : Vec F S8000x2 .f32 := iblk m c 0 t

/-- The out block after point `n`: reset-and-update at the first tile of a shard, update of the carried block otherwise. -/
def chain (c : Dev nD) : (n : ℕ) → n < cfg0.N → Vec F S1x2x256 .f32
  | 0, h => k0_pay2 (tile m c ⟨0, h⟩) (k0_pay1 (F := F))
  | n + 1, h =>
    if (n + 1) % 75 = 0 then k0_pay2 (tile m c ⟨n + 1, h⟩) (k0_pay1 (F := F))
    else k0_pay2 (tile m c ⟨n + 1, h⟩) (chain c n (Nat.lt_of_succ_lt h))

theorem chain_reset (c : Dev nD) (n : ℕ) (h : n < cfg0.N) (h0 : n % 75 = 0) :
    chain m c n h = k0_pay2 (tile m c ⟨n, h⟩) (k0_pay1 (F := F)) := by
  cases n with
  | zero => rfl
  | succ n => simp only [chain, if_pos h0]

theorem chain_step (c : Dev nD) (n : ℕ) (h : n + 1 < cfg0.N) (h0 : ¬(n + 1) % 75 = 0) :
    chain m c (n + 1) h = k0_pay2 (tile m c ⟨n + 1, h⟩) (chain m c n (Nat.lt_of_succ_lt h)) := by
  simp only [chain, if_neg h0]

/-- The frame's running contents of the out block are this recursion. -/
theorem outsAt_eq (c : Dev nD) : ∀ (n : ℕ) (h : n < cfg0.N), outsAt0 m c n h = chain m c n h
  | 0, h => (outsAt0_A m c ⟨0, h⟩ rfl).trans (out_A ..)
  | n + 1, h => by
    by_cases h0 : (n + 1) % 75 = 0
    · rw [outsAt0_A m c ⟨n + 1, h⟩ h0, out_A, chain_reset m c (n + 1) h h0]
    · rw [outsAt0_B m c ⟨n + 1, h⟩ h0, out_B, chain_step m c n h h0]
      show k0_pay2 _ (outsAt0 m c n _) = k0_pay2 _ (chain m c n _)
      rw [outsAt_eq c n]

end AnyF

/-! ## The closed form over the extended reals -/

variable (m : (ℓ : Loc nD τ sig) → Buf (Elt Ideal) ℓ)

/-- A tile's contribution to row `r`, bin `g`, from the tile's values: the energies (r = 0) or the number (r = 1) of
    its rows in bin g. -/
def contribOf (x : Vec Ideal S8000x2 .f32) (r : Fin 2) (g : Fin 256) : EReal :=
  ∑ e : Fin 8000, rowVal x r e * hotVal x g e

/-- Tile `t`'s contribution. -/
def contrib (c : Dev nD) (t : Fin cfg0.N) (r : Fin 2) (g : Fin 256) : EReal := contribOf (tile m c t) r g

theorem N150 : cfg0.N = 150 := N_0

/-- Point 75 s + k as a point of the grid. -/
def pt (s : Fin 2) (k : Fin 75) : Fin cfg0.N :=
  ⟨75 * s.val + k.val, by rw [N150]; have := s.isLt; have := k.isLt; omega⟩

theorem pt_val (s : Fin 2) (k : Fin 75) : (pt s k).val = 75 * s.val + k.val := rfl

/-- One update at (0, r, g): what the block held plus the tile's contribution. -/
theorem update_apply (x : Vec Ideal S8000x2 .f32) (acc : Vec Ideal S1x2x256 .f32) (r : Fin 2) (g : Fin 256) :
    (k0_pay2 (F := Ideal) x acc (ix3 (0 : Fin 1) r g) : EReal) = (acc (ix3 (0 : Fin 1) r g) : EReal) + contribOf x r g :=
  pay2_apply x acc r g

/-- After tile k of shard s the block holds, at (0, r, g), the contributions of the shard's tiles 0..k. -/
theorem chain_closed (c : Dev nD) (s : Fin 2) (r : Fin 2) (g : Fin 256) (k : ℕ) :
    ∀ (hk : k < 75) (n : ℕ) (hn : n < cfg0.N), n = 75 * s.val + k →
      (chain (F := Ideal) m c n hn (ix3 (0 : Fin 1) r g) : EReal)
        = ∑ k' : Fin (k + 1), contrib m c (pt s ⟨k'.val, by have := k'.isLt; omega⟩) r g := by
  induction k with
  | zero =>
    intro hk n hn hnk
    have h0 : n % 75 = 0 := by omega
    refine (congrFun (chain_reset (F := Ideal) m c n hn h0) (ix3 (0 : Fin 1) r g)).trans ?_
    refine (update_apply (tile m c ⟨n, hn⟩) (k0_pay1 (F := Ideal)) r g).trans ?_
    rw [pay1_apply, zero_add, Fin.sum_univ_one]
    have hp : (⟨n, hn⟩ : Fin cfg0.N) = pt s ⟨0, by omega⟩ := Fin.ext (by rw [pt_val]; omega)
    exact congrArg (fun t => contribOf (tile m c t) r g) hp
  | succ k ih =>
    intro hk n hn hnk
    obtain ⟨n', rfl⟩ : ∃ n', n = n' + 1 := ⟨75 * s.val + k, by omega⟩
    have hn' : n' = 75 * s.val + k := by omega
    have h0 : ¬(n' + 1) % 75 = 0 := by omega
    refine (congrFun (chain_step (F := Ideal) m c n' hn h0) (ix3 (0 : Fin 1) r g)).trans ?_
    refine (update_apply (tile m c ⟨n' + 1, hn⟩) (chain (F := Ideal) m c n' (Nat.lt_of_succ_lt hn)) r g).trans ?_
    rw [ih (by omega) n' (Nat.lt_of_succ_lt hn) hn', Fin.sum_univ_castSucc (n := k + 1)]
    refine congrArg (_ + ·) ?_
    have hp : (⟨n' + 1, hn⟩ : Fin cfg0.N) = pt s ⟨(Fin.last (k + 1)).val, by rw [Fin.val_last]; omega⟩ :=
      Fin.ext (by rw [pt_val]; show n' + 1 = 75 * s.val + (Fin.last (k + 1)).val; rw [Fin.val_last]; omega)
    exact congrArg (fun t => contribOf (tile m c t) r g) hp

/-- At a shard's last tile: the whole shard's sum. -/
theorem chain_last (c : Dev nD) (s : Fin 2) (r : Fin 2) (g : Fin 256) (hn : 75 * s.val + 74 < cfg0.N) :
    (chain (F := Ideal) m c (75 * s.val + 74) hn (ix3 (0 : Fin 1) r g) : EReal) = ∑ k : Fin 75, contrib m c (pt s k) r g :=
  chain_closed m c s r g 74 (by omega) _ hn rfl

end Cert.KernelIdeal.KValue

end
-- ==== Proof.KBlocks.lean ====
/-
  From the points to the arrays.

  * The packed input: tile t of the [1200000, 2] array is rows 8000 t .. 8000 t + 7999 (the window's block index on
    the row axis is the point's number t itself, 75 s + k), so row e, column col of tile t is entry
    (8000 t + e, col) of the array as the region finds it.
  * The result: the out window's block index is the shard s = t / 75 alone; the block is written back once a shard,
    after its last tile (t ≡ 74 mod 75), and the two blocks tile the [2, 2, 256] array. So the array ends holding,
    at (s, r, g), the sum over the shard's 75 tiles of the tile's contribution to (r, g).
-/
import proofs.«418521_j395136991275_3_alg».proof.Proof.KAccum
import Idealize.ShloMosaic.Lib.Pipeline.Value

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

/-- The two windows' block indices at a point, decided once over the grid. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_out : ∀ t : Fin cfg0.N, win0_1.index t (0 : Fin 3) = t.val / 75 ∧ win0_1.index t (1 : Fin 3) = 0 ∧ win0_1.index t (2 : Fin 3) = 0 :=
  (by decide +kernel : ∀ t : Fin grid0.N, win0_1.index t (0 : Fin 3) = t.val / 75 ∧ win0_1.index t (1 : Fin 3) = 0 ∧ win0_1.index t (2 : Fin 3) = 0)

variable (m : (ℓ : Loc nD τ sig) → Buf (Elt Ideal) ℓ)

/-- The edge number of row `e` of tile `t`. -/
def edgeAt (t : Fin cfg0.N) (e : Fin 8000) : Fin 1200000 :=
  ⟨t.val * 8000 + e.val, by have h := t.isLt; have hN : cfg0.N = 150 := N150; have := e.isLt; omega⟩

/-- Row `e`, column `col` of tile `t` is entry (8000 t + e, col) of the packed array as the region finds it. -/
theorem tile_apply (c : Dev nD) (t : Fin cfg0.N) (e : Fin 8000) (col : Fin 2) :
    (tile m c t (ix2 e col) : EReal) = (V m c main_v64 (ix2 (edgeAt t e) col) : EReal) := by
  unfold tile iblk
  rw [View.read_apply]
  show V m c main_v64 (((cfg0.win 0).blk t).view.emb (ix2 e col)) = V m c main_v64 (ix2 (edgeAt t e) col)
  exact congrArg (V m c main_v64) (funext fun a => Fin.ext (by
    match a with
    | ⟨0, _⟩ => show win0_0.index t 0 * 8000 + 1 * e.val = t.val * 8000 + e.val; rw [(idx_in t).1]; omega
    | ⟨1, _⟩ => show win0_0.index t 1 * 2 + 1 * col.val = col.val; rw [(idx_in t).2]; omega))

/-- The result array's final contents: at (s, r, g) the sum of shard s's 75 tile contributions to (r, g). -/
def shardFn (c : Dev nD) : FVec Ideal S2x2x256 .f32 := fun i => ∑ k : Fin 75, contrib m c (pt (i 0) k) (i 1) (i 2)

theorem shardFn_apply (c : Dev nD) (s r : Fin 2) (g : Fin 256) :
    shardFn m c (ix3 s r g) = ∑ k : Fin 75, contrib m c (pt s k) r g := rfl

/-- The same as contents of the result buffer. -/
abbrev shardArr (c : Dev nD) : Buf (Elt Ideal) ((c : Thread nD τ).loc main_v65) := shardFn m c

/-- The running block depends on the point's number only, not on how the number is written. -/
private theorem chain_congr (c : Dev nD) (n n' : ℕ) (h : n < cfg0.N) (h' : n' < cfg0.N) (e : n = n') :
    chain m c n h = chain m c n' h' := by subst e; rfl

/-- What a shard's one write-back writes is its block of `shardArr`. -/
theorem flushed_eq (c : Dev nD) (t : Fin cfg0.N) (hf : (cfg0.win 1).flush t = true) :
    (dats m 0 c).flushed 1 t = ((cfg0.win 1).blk t).view.read (Elt Ideal) (shardArr m c) := by
  have hN : cfg0.N = 150 := N150
  have h74 : t.val % 75 = 74 := (flush0_1 t).mp hf
  have ht : t.val < 150 := lt_of_lt_of_eq t.isLt hN
  have hs : t.val / 75 < 2 := by omega
  show (cfg0.win 1).cut (grid0.coords t) ((dats m 0 c).after 1 t) = _
  rw [after0_1, outsAt_eq]
  funext y
  obtain ⟨a, r, g, rfl⟩ : ∃ (a : Fin 1) (r : Fin 2) (g : Fin 256), y = ix3 a r g := ⟨y 0, y 1, y 2, eq_ix3 y⟩
  obtain rfl : a = 0 := Subsingleton.elim _ _
  rw [View.read_apply]
  show chain (F := Ideal) m c t.val t.isLt ((cfg0.win 1).xinj (grid0.coords t) (ix3 (0 : Fin 1) r g))
      = shardFn m c (((cfg0.win 1).blk t).view.emb (ix3 (0 : Fin 1) r g))
  have e1 : (cfg0.win 1).xinj (grid0.coords t) (ix3 (0 : Fin 1) r g) = ix3 (0 : Fin 1) r g :=
    funext fun a => Fin.ext (by match a with | ⟨0, _⟩ => rfl | ⟨1, _⟩ => rfl | ⟨2, _⟩ => rfl)
  have e2 : ((cfg0.win 1).blk t).view.emb (ix3 (0 : Fin 1) r g) = ix3 (⟨t.val / 75, hs⟩ : Fin 2) r g :=
    funext fun a => Fin.ext (by
      match a with
      | ⟨0, _⟩ => show win0_1.index t 0 * 1 + 1 * 0 = t.val / 75; rw [(idx_out t).1]; omega
      | ⟨1, _⟩ => show win0_1.index t 1 * 2 + 1 * r.val = r.val; rw [(idx_out t).2.1]; omega
      | ⟨2, _⟩ => show win0_1.index t 2 * 256 + 1 * g.val = g.val; rw [(idx_out t).2.2]; omega)
  rw [e1, e2, shardFn_apply]
  rw [chain_congr m c t.val (75 * (t.val / 75) + 74) t.isLt (by omega) (by omega)]
  exact chain_last m c ⟨t.val / 75, hs⟩ r g _

/-- The two written-back blocks cover the array, so it ends at `shardArr`. -/
theorem final_out (c : Dev nD) : (dats m 0 c).arrAt 1 cfg0.N = shardArr m c := by
  have hN : cfg0.N = 150 := N150
  refine (dats m 0 c).arrAt_eq_of_cover 1 (shardArr m c) (flushed_eq m c) fun i => ?_
  have h0 : (i 0 : Nat) < 2 := (i 0).isLt
  have h1 : (i 1 : Nat) < 2 := (i 1).isLt
  have h2 : (i 2 : Nat) < 256 := (i 2).isLt
  obtain ⟨T, hT⟩ : ∃ T : Fin cfg0.N, T.val = 75 * (i 0 : Nat) + 74 := ⟨⟨75 * (i 0 : Nat) + 74, by omega⟩, rfl⟩
  have hq : T.val / 75 = (i 0 : Nat) := by omega
  refine ⟨T, (flush0_1 T).mpr (by omega), ?_⟩
  show i ∈ ((View.whole main_v65).slice (win0_1.rect T)).set
  rw [View.set_slice_whole, Rect.mem_set_unit]
  intro a
  match a with
  | ⟨0, _⟩ =>
    show win0_1.index T 0 * win0_1.size 0 ≤ (i 0 : Nat)
      ∧ (i 0 : Nat) < win0_1.index T 0 * win0_1.size 0 + win0_1.xsize (grid0.coords T) 0
    rw [(idx_out T).1, show win0_1.size 0 = 1 from rfl, show win0_1.xsize (grid0.coords T) 0 = 1 from rfl]
    omega
  | ⟨1, _⟩ =>
    show win0_1.index T 1 * win0_1.size 1 ≤ (i 1 : Nat)
      ∧ (i 1 : Nat) < win0_1.index T 1 * win0_1.size 1 + win0_1.xsize (grid0.coords T) 1
    rw [(idx_out T).2.1, show win0_1.size 1 = 2 from rfl, show win0_1.xsize (grid0.coords T) 1 = 2 from rfl]
    omega
  | ⟨2, _⟩ =>
    show win0_1.index T 2 * win0_1.size 2 ≤ (i 2 : Nat)
      ∧ (i 2 : Nat) < win0_1.index T 2 * win0_1.size 2 + win0_1.xsize (grid0.coords T) 2
    rw [(idx_out T).2.2, show win0_1.size 2 = 256 from rfl, show win0_1.xsize (grid0.coords T) 2 = 256 from rfl]
    omega

end Cert.KernelIdeal.KValue

end
-- ==== Proof.KHost.lean ====
/-
  The host lines around the region, on the kernel's side.

  Before the region the host builds the packed [1200000, 2] array: column 0 the per-edge energy (value %60 of the
  host program), column 1 the per-edge segment id (value %59, a 32-bit integer) converted to a float. After the
  region it sums the [2, 2, 256] result over its two shards, takes row 0 (energy sums) and row 1 (edge counts),
  clips the counts below at 1, divides, averages over the 256 graphs, scales by the literal 0x3C23D70A and adds the
  cross-entropy scalar %5. Those after-lines are named here as ONE function `tailFn` of the scalar and the array
  (and `tail2` of the scalar and the two rows), so that nothing downstream ever opens them.
-/
import proofs.«418521_j395136991275_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

section AnyF
variable {F : FTy → Type} [FloatOps F]

/-- From the cross-entropy scalar, the per-graph energy sums and the per-graph edge counts to the loss:
    ce + λ · mean_g (es[g] / max(1, cn[g])), the mean a sum divided by the literal 256. -/
def tail2 (ce : FVec F S_ .f32) (es cn : FVec F S256 .f32) : FVec F S_ .f32 :=
  addf ce (mulf (constant S_ .f32 0x3C23D70A#32)
    (Host.divf
      (Host.reduceAdd (Host.divf es (maximumf (broadcastInDim S256 ![] bcast_S_S256 (id (constant S_ .f32 0x3F800000#32))) cn))
        (constant S_ .f32 0x00000000#32) reducesTo_S256_S_d0 h_S_)
      (constant S_ .f32 0x43800000#32)))

/-- The [2, 2, 256] result summed over its shard axis. -/
def shardSum (A : FVec F S2x2x256 .f32) : FVec F S2x256 .f32 :=
  Host.reduceAdd A (constant S_ .f32 0x00000000#32) reducesTo_S2x2x256_S2x256_d0 h_S_

/-- Row `0` (energy sums) or row `1` (edge counts) of the shard sum, as a vector over the 256 graphs. -/
def row0 (R : FVec F S2x256 .f32) : FVec F S256 .f32 :=
  shapeCast S256 (extractStridedSlice S1x256 ![0, 0] R slices_S2x256_S1x256_0_0) shapeCasts_S1x256_S256
def row1 (R : FVec F S2x256 .f32) : FVec F S256 .f32 :=
  shapeCast S256 (extractStridedSlice S1x256 ![1, 0] R slices_S2x256_S1x256_1_0) shapeCasts_S1x256_S256

/-- All the host lines after the region. -/
def tailFn (ce : FVec F S_ .f32) (A : FVec F S2x2x256 .f32) : FVec F S_ .f32 :=
  tail2 ce (row0 (shardSum A)) (row1 (shardSum A))

/-- A list of lists with one more list at its end flattens to the flattening followed by that list. -/
private theorem flatten_snoc {α : Type} (L : List (List α)) (l : List α) : (L ++ [l]).flatten = L.flatten ++ l := by
  rw [List.flatten_append, List.flatten_cons, List.flatten_nil, List.append_nil]

/-- The last four host lines before the region: the segment ids converted to floats, the two columns as
    [1200000, 1] arrays, and the two side by side. -/
private abbrev packOps : List (HloOp τ sig (Elt F)) :=
  [ StableHlo.unary main_v59 main_v61 (sitofp .f32 : (⟨S1200000, .i32⟩ : BufTy).Contents (Elt F) → (⟨S1200000, .f32⟩ : BufTy).Contents (Elt F)),
    StableHlo.unary main_v60 main_v62 (broadcastInDim S1200000x1 ![0] bcast_S1200000_S1200000x1_0 : (⟨S1200000, .f32⟩ : BufTy).Contents (Elt F) → (⟨S1200000x1, .f32⟩ : BufTy).Contents (Elt F)),
    StableHlo.unary main_v61 main_v63 (broadcastInDim S1200000x1 ![0] bcast_S1200000_S1200000x1_0 : (⟨S1200000, .f32⟩ : BufTy).Contents (Elt F) → (⟨S1200000x1, .f32⟩ : BufTy).Contents (Elt F)),
    StableHlo.binary main_v62 main_v63 main_v64 ((fun a b => concatenate S1200000x2 1 [⟨S1200000x1, a⟩, ⟨S1200000x1, b⟩] concatenates_S1200000x1_S1200000x1_S1200000x2_d1) : (⟨S1200000x1, .f32⟩ : BufTy).Contents (Elt F) → (⟨S1200000x1, .f32⟩ : BufTy).Contents (Elt F) → (⟨S1200000x2, .f32⟩ : BufTy).Contents (Elt F)) ]

/-- The last stretch of host lines before the region ends in those four. -/
private theorem hostOps0_7_split :
    (hostOps0_7 : List (HloOp τ sig (Elt F))) = (hostOps0_7 : List (HloOp τ sig (Elt F))).take 51 ++ packOps := by
  have hd : (hostOps0_7 : List (HloOp τ sig (Elt F))).drop 51 = packOps := rfl
  rw [← hd, List.take_append_drop]

variable (m : (ℓ : Loc nD τ sig) → Buf (Elt F) ℓ)

/-- The program's result: the after-lines applied to the scalar %5 as the region finds it and the result array as
    the region leaves it. -/
theorem tail_eq (c : Dev nD) :
    Pipeline.afterTail₀ cfgs (dats m) 0 (V0 m) [hostOps1, hostOps1_1, hostOps1_2] c main_v76
      = tailFn (V m c main_v5) ((dats m 0 c).arrAt 1 cfg0.N) := by
  unfold Pipeline.afterTail₀
  simp only [hostOps1, hostOps1_1, hostOps1_2, List.flatten_cons, List.flatten_nil, List.append_nil, List.cons_append, List.nil_append]
  after_results
  have h65 : Pipeline.withArrays (cfgs 0).spec c (V0 m c) (fun w => (dats m 0 c).arrAt w (cfgs 0).N) (Proc.devRef .tc main_v65)
      = (dats m 0 c).arrAt 1 cfg0.N := Pipeline.withArrays_arr spec0 launch0.win.arr_inj c _ _ 1
  have h5 : Pipeline.withArrays (cfgs 0).spec c (V0 m c) (fun w => (dats m 0 c).arrAt w (cfgs 0).N) (Proc.devRef .tc main_v5)
      = V m c main_v5 :=
    Pipeline.withArrays_of_ne _ c (V0 m c) _ main_v5 (by exact (by decide : ∀ w, Pipeline.arrRef spec0 w ≠ main_v5))
  rw [h65, h5]
  rfl

/-- Core `c`'s buffer contents just before the last four host lines. -/
private def Wpre (c : Dev nD) : Valuation τ sig (Elt F) :=
  StableHlo.after ((hostOps0_7 : List (HloOp τ sig (Elt F))).take 51)
    (StableHlo.after (List.flatten [hostOps0, hostOps0_1, hostOps0_2, hostOps0_3, hostOps0_4, hostOps0_5, hostOps0_6]) (fun b => m (c, b)))

/-- The contents the region finds are the last four lines run from there. -/
private theorem V0_eq (c : Dev nD) : V0 m c = StableHlo.after packOps (Wpre m c) := by
  have e : List.flatten [hostOps0, hostOps0_1, hostOps0_2, hostOps0_3, hostOps0_4, hostOps0_5, hostOps0_6, (hostOps0_7 : List (HloOp τ sig (Elt F)))]
      = List.flatten [hostOps0, hostOps0_1, hostOps0_2, hostOps0_3, hostOps0_4, hostOps0_5, hostOps0_6]
          ++ ((hostOps0_7 : List (HloOp τ sig (Elt F))).take 51 ++ packOps) :=
    (flatten_snoc [hostOps0, hostOps0_1, hostOps0_2, hostOps0_3, hostOps0_4, hostOps0_5, hostOps0_6] (hostOps0_7 : List (HloOp τ sig (Elt F)))).trans
      (congrArg (List.flatten [hostOps0, hostOps0_1, hostOps0_2, hostOps0_3, hostOps0_4, hostOps0_5, hostOps0_6] ++ ·) hostOps0_7_split)
  show StableHlo.after (List.flatten [hostOps0, hostOps0_1, hostOps0_2, hostOps0_3, hostOps0_4, hostOps0_5, hostOps0_6, hostOps0_7]) (fun b => m (c, b)) = _
  rw [e, StableHlo.after_append, StableHlo.after_append]
  rfl

/-- The packed array as the region finds it: the energies and the converted segment ids side by side. -/
theorem V_pack (c : Dev nD) :
    (V m c main_v64 : FVec F S1200000x2 .f32)
      = concatenate S1200000x2 1
          [⟨S1200000x1, broadcastInDim S1200000x1 ![0] bcast_S1200000_S1200000x1_0 (V m c main_v60 : FVec F S1200000 .f32)⟩,
           ⟨S1200000x1, broadcastInDim S1200000x1 ![0] bcast_S1200000_S1200000x1_0 (sitofp .f32 (V m c main_v59 : IVec S1200000 32) : FVec F S1200000 .f32)⟩]
          concatenates_S1200000x1_S1200000x1_S1200000x2_d1 := by
  have e := V0_eq m c
  have h64 : V m c main_v64 = StableHlo.after packOps (Wpre m c) (Proc.devRef .tc main_v64) := congrFun e _
  have h60 : V m c main_v60 = StableHlo.after packOps (Wpre m c) (Proc.devRef .tc main_v60) := congrFun e _
  have h59 : V m c main_v59 = StableHlo.after packOps (Wpre m c) (Proc.devRef .tc main_v59) := congrFun e _
  rw [h64, h60, h59]
  generalize Wpre m c = W
  after_results

end AnyF

/-! ## The packed array at an index, over the extended reals -/

variable (m : (ℓ : Loc nD τ sig) → Buf (Elt Ideal) ℓ)

/-- Column 0 of edge `j` is its energy. -/
theorem pack_col0 (c : Dev nD) (j : Fin 1200000) :
    (V m c main_v64 (ix2 j (0 : Fin 2)) : EReal) = (V m c main_v60 (ix1 j) : EReal) := by
  refine (congrFun (V_pack m c) (ix2 j (0 : Fin 2))).trans ?_
  refine (concatenate_pair_apply_left _ _ _ concatenates_S1200000x1_S1200000x1_S1200000x2_d1 (ix2 j (0 : Fin 2)) rfl
    (ix2 j (0 : Fin 1)) ?_).trans ?_
  · intro b
    match b with
    | ⟨0, _⟩ => rfl
    | ⟨1, _⟩ => rfl
  · exact broadcastInDim_apply _ bcast_S1200000_S1200000x1_0 _ (ix2 j (0 : Fin 1)) (ix1 j) (fun a =>
      match a with
      | ⟨0, _⟩ => by
        show j.val = if (1200000 : Nat) = 1 then 0 else j.val
        rw [if_neg (by decide)])

/-- Column 1 of edge `j` is its segment id's signed value, as a real. -/
theorem pack_col1 (c : Dev nD) (j : Fin 1200000) :
    (V m c main_v64 (ix2 j (1 : Fin 2)) : EReal) = ((((V m c main_v59 (ix1 j) : BitVec 32)).toInt : ℝ) : EReal) := by
  refine (congrFun (V_pack m c) (ix2 j (1 : Fin 2))).trans ?_
  refine (concatenate_pair_apply_right _ _ _ concatenates_S1200000x1_S1200000x1_S1200000x2_d1 (ix2 j (1 : Fin 2)) rfl rfl
    (ix2 j (0 : Fin 1)) ?_ ?_).trans ?_
  · intro b hb
    match b, hb with
    | ⟨0, _⟩, _ => rfl
    | ⟨1, _⟩, hb => exact absurd rfl hb
  · rfl
  · refine (broadcastInDim_apply _ bcast_S1200000_S1200000x1_0 _ (ix2 j (0 : Fin 1)) (ix1 j) (fun a =>
      match a with
      | ⟨0, _⟩ => by
        show j.val = if (1200000 : Nat) = 1 then 0 else j.val
        rw [if_neg (by decide)])).trans ?_
    rfl

end Cert.KernelIdeal.KValue

end
-- ==== Proof.SegLaw.lean ====
/-
  Pure arithmetic behind the segment reduction, over the extended reals; no program is imported.

  * An edge number below 1,200,000 is, in exactly one way, (75 s + k) * 8000 + e with s < 2, k < 75, e < 8000: the
    grid walks the edges tile by tile, 75 tiles of 8000 rows to a shard. So a sum over shards, tiles and rows of a
    function of that edge number is the sum over all edges (`tiles_sum`); the extended reals' addition is commutative
    and associative, which is all a re-tiling needs.
  * A 32-bit word read as a signed integer, made an (exact) real, and truncated back toward zero into 32 bits is
    the word again (`fptosi_sitofp`): the real is an integer already and lies inside the clamp.
  * For a bin number g < 256 the word of g is the only 32-bit word whose signed value is g (`eq_ofNat_iff_toInt`).
  * A sum of f j * [p j] over all j (the bracket 1 or 0) is the sum of f over the j with p j
    (`sum_mul_indicator`): x * 1 = x and x * 0 = 0 for EVERY extended real x, the infinities included.
-/
import Idealize.ShloMosaic.PureOps.Ideal
import Mathlib.Algebra.BigOperators.Fin
import Mathlib.Algebra.BigOperators.Ring.Finset

noncomputable section

namespace Cert.SegLaw

open Idealize.ShloMosaic

/-- Row `e` of tile `k` of shard `s`, as an edge number. -/
def edge (s : Fin 2) (k : Fin 75) (e : Fin 8000) : Fin 1200000 :=
  ⟨(75 * s.val + k.val) * 8000 + e.val, by have := s.isLt; have := k.isLt; have := e.isLt; omega⟩

theorem edge_val (s : Fin 2) (k : Fin 75) (e : Fin 8000) : (edge s k e).val = (75 * s.val + k.val) * 8000 + e.val := rfl

/-- The edge numbering as a bijection: the inverse reads off shard, tile and row by division and remainder. -/
private def edgeEquiv : Fin 2 × Fin 75 × Fin 8000 ≃ Fin 1200000 where
  toFun x := edge x.1 x.2.1 x.2.2
  invFun j :=
    (⟨j.val / 600000, by have := j.isLt; omega⟩, ⟨j.val / 8000 % 75, by omega⟩, ⟨j.val % 8000, by omega⟩)
  left_inv := by
    rintro ⟨s, k, e⟩
    have := s.isLt; have := k.isLt; have := e.isLt
    refine Prod.ext (Fin.ext ?_) (Prod.ext (Fin.ext ?_) (Fin.ext ?_)) <;> simp only [edge_val] <;> omega
  right_inv := by
    intro j
    have := j.isLt
    refine Fin.ext ?_
    simp only [edge_val]
    omega

/-- Shards, tiles and rows enumerate the edges exactly once. -/
theorem tiles_sum (f : Fin 1200000 → EReal) :
    ∑ s : Fin 2, ∑ k : Fin 75, ∑ e : Fin 8000, f (edge s k e) = ∑ j : Fin 1200000, f j := by
  rw [← Fintype.sum_equiv edgeEquiv (fun x => f (edge x.1 x.2.1 x.2.2)) f (fun _ => rfl)]
  rw [Fintype.sum_prod_type]
  refine Finset.sum_congr rfl (fun s _ => ?_)
  rw [Fintype.sum_prod_type]

/-- Signed word → real → signed word (truncating toward zero, clamped to 32 bits) is the identity. -/
theorem fptosi_sitofp (b : BitVec 32) : Ideal.fptosi 32 (((b.toInt : ℝ) : EReal)) = b := by
  have h1 : b.toInt < 2 ^ 31 := by have := BitVec.toInt_lt (x := b); omega
  have h2 : -(2 ^ 31) ≤ b.toInt := by have := BitVec.le_toInt (x := b); omega
  rw [Ideal.fptosi, Ideal.toIntClamped_coe]
  simp only [Int.floor_intCast, Int.ceil_intCast, ite_self]
  rw [min_eq_right (by norm_num; omega), max_eq_right (by norm_num; omega)]
  exact BitVec.ofInt_toInt

/-- Below 2^31 a natural number's word is the one word with that signed value. -/
theorem eq_ofNat_iff_toInt (b : BitVec 32) (g : Fin 256) : b = BitVec.ofNat 32 g.val ↔ b.toInt = (g.val : Int) := by
  have hg := g.isLt
  have h : (BitVec.ofNat 32 g.val).toInt = (g.val : Int) := by
    rw [BitVec.toInt_ofNat']
    unfold Int.bmod
    norm_num
    omega
  constructor
  · rintro rfl; exact h
  · intro hb; exact BitVec.eq_of_toInt_eq (by rw [hb, h])

/-- Multiplying by a 0/1 indicator and summing is summing over the indicated set, on the extended reals. -/
theorem sum_mul_indicator {ι : Type} [Fintype ι] (f : ι → EReal) (p : ι → Prop) [DecidablePred p] :
    ∑ j : ι, f j * (if p j then (1 : EReal) else 0) = ∑ j ∈ Finset.univ.filter p, f j := by
  rw [Finset.sum_filter]
  refine Finset.sum_congr rfl (fun j _ => ?_)
  rw [mul_ite, mul_one, mul_zero]

end Cert.SegLaw

end
-- ==== Proof.RefScatter.lean ====
/-
  The reference's two segment sums, read at one bin. jax's segment_sum into 256 bins lowers to a scatter whose
  body adds: at the exact (extended-real) reading each bin holds its starting value plus the sum of the updates
  whose index lands on it. For this scatter — rank-1 operand of 256 bins, one index word per update, no window —
  update j lands on bin g exactly when its index word, read as a SIGNED integer, is g; an index outside 0..255
  (negative words included) lands nowhere and is dropped.
-/
import proofs.«418521_j395136991275_3_alg».proof.ReferenceIdeal
import proofs.«418521_j395136991275_3_alg».proof.Proof.Gen.ReferenceIdeal
import Idealize.ShloMosaic.PureOps.Ideal
import Idealize.ShloMosaic.Lib.ValueIdx

noncomputable section

namespace Cert.ReferenceIdeal.RefValue

open Cert.ReferenceIdeal Cert.ReferenceIdeal.Gen Idealize.ShloMosaic Idealize.ShloMosaic.ValueIdx

/-- The scatter's dimension numbers, under a short name. -/
private abbrev sc := scatter_S256_S1200000x1_S1200000_n_0_0_1

/-- Where update `j` reads its one start component: row `j 0` of the index array, column `0`.
    Axis 0 of the index array is its only scatter axis and carries the update's coordinate; axis 1 is the
    index vector's axis, of extent 1, so the component number is `0`. -/
private theorem siIdx_eq (j : S1200000.Idx) (c : Fin sc.scatterDimsToOperandDims.length) :
    sc.siIdx j c = ix2 (j 0) (0 : Fin 1) := by
  funext b
  match b with
  | ⟨0, _⟩ => rfl
  | ⟨1, _⟩ =>
    apply Fin.ext
    have hc : c.val < 1 := c.isLt
    show c.val = 0
    omega

/-- The window's start on the operand's one axis is the index word read signed: axis 0 is named by the
    scatter-dims-to-operand-dims map, at position 0. -/
private theorem start_eq (idx : IVec S1200000x1 32) (j : S1200000.Idx) (a : Fin S256.rank) :
    sc.start j idx a = (idx (ix2 (j 0) (0 : Fin 1))).toInt := by
  have ha : a = 0 := Subsingleton.elim _ _
  subst ha
  unfold ScatterDims.start
  have hm : (0 : Fin S256.rank) ∈ sc.scatterDimsToOperandDims := by decide
  rw [dif_pos hm, siIdx_eq]
  rfl

/-- There is no window: the operand's one axis is an inserted axis, so the window coordinate on it is `0`. -/
private theorem window_eq (j : S1200000.Idx) (a : Fin S256.rank) : sc.window j a = 0 := by
  have ha : a = 0 := Subsingleton.elim _ _
  subst ha
  unfold ScatterDims.window
  have hm : ¬ (0 : Fin S256.rank) ∈ sc.sKept := by decide
  rw [dif_neg hm]

/-- Update `j` of the 1,200,000 lands on bin `i` iff its index word's signed value is `i`'s number. -/
theorem lands_iff (idx : IVec S1200000x1 32) (j : S1200000.Idx) (i : S256.Idx) :
    scatter_S256_S1200000x1_S1200000_n_0_0_1.resultIdx? j idx = some i
      ↔ (idx (ix2 (j 0) (0 : Fin 1))).toInt = ((i 0).val : Int) := by
  have hsz : S256.size 0 = 256 := rfl
  have hi : (i 0).val < 256 := (i 0).isLt
  unfold ScatterDims.resultIdx?
  by_cases h : ∀ a, 0 ≤ sc.start j idx a + sc.window j a ∧ sc.start j idx a + sc.window j a < S256.size a
  · -- in range: the landing bin is the signed word itself, as a natural number
    rw [dif_pos h]
    have h0 := h 0
    rw [start_eq, window_eq, hsz] at h0
    rw [Option.some.injEq]
    constructor
    · intro he
      have he0 := congrArg (fun f => (f 0).val) he
      simp only [start_eq, window_eq] at he0
      omega
    · intro he
      funext a
      have ha : a = 0 := Subsingleton.elim _ _
      subst ha
      apply Fin.ext
      simp only [start_eq, window_eq]
      omega
  · -- out of range: the update is dropped, and the word is no bin's number since 0 ≤ i < 256
    rw [dif_neg h]
    constructor
    · intro he; exact absurd he (by simp)
    · intro he
      exfalso
      apply h
      intro a
      have ha : a = 0 := Subsingleton.elim _ _
      subst ha
      rw [start_eq, window_eq, hsz]
      omega

/-- A rank-1 index of the updates is its one coordinate. -/
private def updEquiv : S1200000.Idx ≃ Fin 1200000 where
  toFun j := j 0
  invFun := ix1
  left_inv j := (eq_ix1 j).symm
  right_inv _ := rfl

/-- The segment sum at bin `g`: the bin's starting value plus the updates of the edges whose segment id is `g`. -/
theorem scatterAdd_bin (x : FVec Ideal S256 .f32) (idx : IVec S1200000x1 32) (upd : FVec Ideal S1200000 .f32) (g : Fin 256) :
    Host.scatterAdd scatter_S256_S1200000x1_S1200000_n_0_0_1 x idx upd (ix1 g)
      = x (ix1 g) + ∑ j ∈ Finset.univ.filter (fun j : Fin 1200000 => (idx (ix2 j (0 : Fin 1))).toInt = (g.val : Int)), upd (ix1 j) := by
  show Ideal.hostScatterAdd sc x idx upd (ix1 g) = _
  unfold Ideal.hostScatterAdd
  refine congrArg (x (ix1 g) + ·) ?_
  -- re-index the sum over rank-1 indices by their coordinate; the landing condition is `lands_iff`
  refine Finset.sum_equiv updEquiv ?_ ?_
  · intro j
    rw [Finset.mem_filter, Finset.mem_filter, lands_iff]
    exact ⟨fun h => ⟨Finset.mem_univ _, h.2⟩, fun h => ⟨Finset.mem_univ _, h.2⟩⟩
  · intro j _
    exact congrArg upd (eq_ix1 j)

end Cert.ReferenceIdeal.RefValue

end
-- ==== Proof.BridgePrefix.lean ====
/-
  The host lines before the region are the reference's own first lines: both programs compute the cross-entropy
  scalar, the per-edge energy  norm · ∑_d (x[row] − x[col])²  and the per-edge segment id  batch[row]  by the same
  operations on the same arguments, in a different order of lines. So the three values the kernel's region and
  after-lines take from the host are the reference's stages of the same names' values.
-/
import proofs.«418521_j395136991275_3_alg».proof.Proof.Gen.KernelIdeal.Frame
import proofs.«418521_j395136991275_3_alg».proof.Proof.RefRead
import Idealize.ShloMosaic.Lib.StableHlo.Run
import Idealize.ShloMosaic.Lib.Tactic

noncomputable section

namespace Cert.Proof.Prefix

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

set_option maxRecDepth 8192 in
set_option maxHeartbeats 8000000 in
/-- The per-edge energy the region is fed is the reference's. -/
theorem energy_eq (c : Dev nD) :
    (V m c main_v60 : FVec F S1200000 .f32)
      = Cert.ReferenceIdeal.PRead.val_main_v53 (F := F) (m ((c.tc : Thread nD τ).loc main_arg2)) (m ((c.tc : Thread nD τ).loc main_arg3)) := by
  dsimp only [V, V0]
  simp only [hostOps0, hostOps0_1, hostOps0_2, hostOps0_3, hostOps0_4, hostOps0_5, hostOps0_6, hostOps0_7, List.flatten_cons, List.flatten_nil,
    List.append_nil, List.cons_append, List.nil_append]
  after_results_simp
  simp only [StableHlo.TRef.ofBuf, StableHlo.TRef.toBuf, cast_eq]
  rfl

set_option maxRecDepth 8192 in
set_option maxHeartbeats 4000000 in
/-- The per-edge segment id the region is fed is the reference's. -/
theorem seg_eq (c : Dev nD) :
    (V m c main_v59 : IVec S1200000 32)
      = Cert.ReferenceIdeal.PRead.val_main_v60 (F := F) (m ((c.tc : Thread nD τ).loc main_arg3)) (m ((c.tc : Thread nD τ).loc main_arg4)) := by
  dsimp only [V, V0]
  simp only [hostOps0, hostOps0_1, hostOps0_2, hostOps0_3, hostOps0_4, hostOps0_5, hostOps0_6, hostOps0_7, List.flatten_cons, List.flatten_nil,
    List.append_nil, List.cons_append, List.nil_append]
  after_results_simp
  rfl

set_option maxRecDepth 8192 in
set_option maxHeartbeats 4000000 in
/-- The cross-entropy scalar is the reference's. -/
theorem ce_eq (c : Dev nD) :
    (V m c main_v5 : FVec F S_ .f32)
      = Cert.ReferenceIdeal.PRead.val_main_v5 (F := F) (m ((c.tc : Thread nD τ).loc main_arg0)) (m ((c.tc : Thread nD τ).loc main_arg1)) := by
  dsimp only [V, V0]
  simp only [hostOps0, hostOps0_1, hostOps0_2, hostOps0_3, hostOps0_4, hostOps0_5, hostOps0_6, hostOps0_7, List.flatten_cons, List.flatten_nil,
    List.append_nil, List.cons_append, List.nil_append]
  after_results_simp
  simp only [StableHlo.TRef.ofBuf, StableHlo.TRef.toBuf, cast_eq]
  rfl

end Cert.Proof.Prefix

end
-- ==== Proof.Bridge.lean ====
/-
  The two programs compute the same 256 energy sums and the same 256 edge counts.

  Kernel. The region leaves, at (s, r, g) of its [2, 2, 256] result, the sum over shard s's 75 tiles and each tile's
  8000 rows of  V[e, r] · H[e, g]:  V[e, 0] the row's packed energy, V[e, 1] = 1, H[e, g] = 1 when the row's packed
  segment id — the integer id made a float by the host and truncated back by the kernel, which is the id again — is
  the word of g. The host then adds the two shards. Row e of tile k of shard s is edge (75 s + k) · 8000 + e, and
  these enumerate the 1,200,000 edges once, so row r of the shard sum at bin g is  ∑ over the edges j whose segment
  id is g  of (energy j | 1).
  Reference. jax's segment_sum is a scatter that adds: bin g holds 0 + the sum of the updates (energy j | 1) whose
  signed index is g; an id outside 0..255 lands nowhere — exactly the edges the one-hot drops.
  Both sides start from 0, so nothing but commutativity and associativity of + and x·1 = x, x·0 = 0 on the extended
  reals is used: no input need be finite. The lines after the two sums are the same operations in both programs.
-/
import proofs.«418521_j395136991275_3_alg».proof.Proof.KBlocks
import proofs.«418521_j395136991275_3_alg».proof.Proof.KHost
import proofs.«418521_j395136991275_3_alg».proof.Proof.SegLaw
import proofs.«418521_j395136991275_3_alg».proof.Proof.RefScatter
import proofs.«418521_j395136991275_3_alg».proof.Proof.BridgePrefix
import Idealize.ShloMosaic.PureOps.Ideal.Laws
import Idealize.ShloMosaic.Lib.Pipeline.Value

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.KValue
open Cert.ReferenceIdeal.PRead

/-! ## The after-lines' first steps at an index -/

/-- Row 0 of the shard sum at graph `g`. -/
theorem row0_apply (R : FVec Ideal S2x256 .f32) (g : Fin 256) : (row0 R (ix1 g) : EReal) = R (ix2 (0 : Fin 2) g) := by
  unfold row0
  refine (shapeCast_apply (extractStridedSlice S1x256 ![0, 0] R slices_S2x256_S1x256_0_0) shapeCasts_S1x256_S256 (ix1 g) (ix2 (0 : Fin 1) g)
    (by rewrite [Shape.rowMajor_val_two, Shape.rowMajor_val_one]; show 0 * 256 + g.val = g.val; omega)).trans ?_
  exact extractStridedSlice_apply ![0, 0] R slices_S2x256_S1x256_0_0 (ix2 (0 : Fin 1) g) (ix2 (0 : Fin 2) g) (fun a => match a with
    | ⟨0, _⟩ => by show (0 : Nat) = 0 + 0; omega
    | ⟨1, _⟩ => by show g.val = 0 + g.val; omega)

/-- Row 1 of the shard sum at graph `g`. -/
theorem row1_apply (R : FVec Ideal S2x256 .f32) (g : Fin 256) : (row1 R (ix1 g) : EReal) = R (ix2 (1 : Fin 2) g) := by
  unfold row1
  refine (shapeCast_apply (extractStridedSlice S1x256 ![1, 0] R slices_S2x256_S1x256_1_0) shapeCasts_S1x256_S256 (ix1 g) (ix2 (0 : Fin 1) g)
    (by rewrite [Shape.rowMajor_val_two, Shape.rowMajor_val_one]; show 0 * 256 + g.val = g.val; omega)).trans ?_
  exact extractStridedSlice_apply ![1, 0] R slices_S2x256_S1x256_1_0 (ix2 (0 : Fin 1) g) (ix2 (1 : Fin 2) g) (fun a => match a with
    | ⟨0, _⟩ => by show (1 : Nat) = 1 + 0; omega
    | ⟨1, _⟩ => by show g.val = 0 + g.val; omega)

/-- The sum over the two shards, from the zero literal. -/
theorem shardSum_apply (A : FVec Ideal S2x2x256 .f32) (r : Fin 2) (g : Fin 256) :
    (shardSum (F := Ideal) A (ix2 r g) : EReal) = ∑ s : Fin 2, (A (ix3 s r g) : EReal) := by
  unfold shardSum
  simp only [Host.reduceAdd, Ideal.hostReduceAdd_def]
  rw [Ideal.hostReduceAdd_single reducesTo_S2x2x256_S2x256_d0 (by decide)]
  rw [show (constant (F := Ideal) S_ .f32 0x00000000#32) (Shape.Idx.first h_S_) = (0 : EReal) from Ideal.ofBits_zero_f32, zero_add]
  refine Finset.sum_congr rfl fun s _ => ?_
  exact congrArg A (funext fun a => Fin.ext (by match a with | ⟨0, _⟩ => rfl | ⟨1, _⟩ => rfl | ⟨2, _⟩ => rfl))

/-! ## One bin, both sides -/

variable (m : (ℓ : Loc nD τ sig) → Buf (Elt Ideal) ℓ)

/-- The arguments, by the reference's parameter names. -/
abbrev X0 (c : Dev nD) := m ((c.tc : Thread nD τ).loc main_arg0)
abbrev X1 (c : Dev nD) := m ((c.tc : Thread nD τ).loc main_arg1)
abbrev X2 (c : Dev nD) := m ((c.tc : Thread nD τ).loc main_arg2)
abbrev X3 (c : Dev nD) := m ((c.tc : Thread nD τ).loc main_arg3)
abbrev X4 (c : Dev nD) := m ((c.tc : Thread nD τ).loc main_arg4)

/-- Edge `j`'s energy and segment id, as the reference names them. -/
abbrev en (c : Dev nD) (j : Fin 1200000) : EReal := val_main_v53 (F := Ideal) (X2 m c) (X3 m c) (ix1 j)
abbrev sg (c : Dev nD) (j : Fin 1200000) : BitVec 32 := val_main_v60 (F := Ideal) (X3 m c) (X4 m c) (ix1 j)

theorem edgeAt_pt (s : Fin 2) (k : Fin 75) (e : Fin 8000) : edgeAt (pt s k) e = Cert.SegLaw.edge s k e := Fin.ext rfl

/-- The value column of a tile row is that edge's energy; -/
theorem rowVal_zero (c : Dev nD) (s : Fin 2) (k : Fin 75) (e : Fin 8000) :
    rowVal (tile m c (pt s k)) 0 e = en m c (Cert.SegLaw.edge s k e) := by
  unfold rowVal
  rw [if_pos (show ((0 : Fin 2) : ℕ) = 0 from rfl), tile_apply, pack_col0, edgeAt_pt]
  exact congrFun (Cert.Proof.Prefix.energy_eq m c) _

/-- the ones column is one; -/
theorem rowVal_one (c : Dev nD) (t : Fin cfg0.N) (e : Fin 8000) : rowVal (tile m c t) 1 e = 1 := by
  unfold rowVal
  rw [if_neg (by decide)]

/-- and the one-hot entry says whether that edge's segment id is `g`. -/
theorem hotVal_eq (c : Dev nD) (s : Fin 2) (k : Fin 75) (e : Fin 8000) (g : Fin 256) :
    hotVal (tile m c (pt s k)) g e = if (sg m c (Cert.SegLaw.edge s k e)).toInt = (g.val : Int) then 1 else 0 := by
  unfold hotVal
  rw [tile_apply, pack_col1, Cert.SegLaw.fptosi_sitofp, edgeAt_pt, congrFun (Cert.Proof.Prefix.seg_eq m c) _]
  exact if_congr (Cert.SegLaw.eq_ofNat_iff_toInt _ g) rfl rfl

/-- Row `r` of the kernel's shard sum at bin `g`: over the edges in segment `g`, the energies (r = 0) or ones (r = 1). -/
theorem kernel_bin (c : Dev nD) (r : Fin 2) (g : Fin 256) :
    (shardSum (F := Ideal) (shardArr m c) (ix2 r g) : EReal)
      = ∑ j ∈ Finset.univ.filter (fun j : Fin 1200000 => (sg m c j).toInt = (g.val : Int)), (if r.val = 0 then en m c j else 1) := by
  rw [shardSum_apply, ← Cert.SegLaw.sum_mul_indicator, ← Cert.SegLaw.tiles_sum]
  refine Finset.sum_congr rfl fun s _ => ?_
  refine (shardFn_apply m c s r g).trans ?_
  refine Finset.sum_congr rfl fun k _ => ?_
  unfold contrib
  refine Finset.sum_congr rfl fun e _ => ?_
  have hrow : rowVal (tile m c (pt s k)) r e = if r.val = 0 then en m c (Cert.SegLaw.edge s k e) else 1 := by
    match r with
    | ⟨0, _⟩ => exact (rowVal_zero m c s k e).trans (if_pos rfl).symm
    | ⟨1, _⟩ => exact (rowVal_one m c (pt s k) e).trans (if_neg (Nat.succ_ne_zero 0)).symm
  rw [hotVal_eq, hrow]

/-- The reference's energy sum at bin `g`. -/
theorem ref_es (c : Dev nD) (g : Fin 256) :
    (val_main_v63 (F := Ideal) (X2 m c) (X3 m c) (X4 m c) (ix1 g) : EReal)
      = ∑ j ∈ Finset.univ.filter (fun j : Fin 1200000 => (sg m c j).toInt = (g.val : Int)), en m c j := by
  unfold val_main_v63
  rw [Cert.ReferenceIdeal.RefValue.scatterAdd_bin, val_main_v61_apply, val_main_cst_17_apply]
  rw [show (FloatOps.ofBits (F := Ideal) .f32 0x00000000#32 : EReal) = 0 from Ideal.ofBits_zero_f32, zero_add]
  refine Finset.sum_congr (Finset.filter_congr fun j _ => ?_) fun _ _ => rfl
  rw [val_main_v62_apply]
  exact Iff.of_eq (congrArg (fun w : BitVec 32 => w.toInt = (g.val : Int)) (congrArg (val_main_v60 (F := Ideal) (X3 m c) (X4 m c)) (funext fun a => by match a with | ⟨0, _⟩ => rfl)))

/-- The reference's edge count at bin `g`. -/
theorem ref_cn (c : Dev nD) (g : Fin 256) :
    (val_main_v66 (F := Ideal) (X3 m c) (X4 m c) (ix1 g) : EReal)
      = ∑ j ∈ Finset.univ.filter (fun j : Fin 1200000 => (sg m c j).toInt = (g.val : Int)), (1 : EReal) := by
  unfold val_main_v66
  rw [Cert.ReferenceIdeal.RefValue.scatterAdd_bin, val_main_v64_apply, val_main_cst_18_apply]
  rw [show (FloatOps.ofBits (F := Ideal) .f32 0x00000000#32 : EReal) = 0 from Ideal.ofBits_zero_f32, zero_add]
  refine Finset.sum_congr (Finset.filter_congr fun j _ => ?_) fun j _ => ?_
  · rw [val_main_v65_apply]
    exact Iff.of_eq (congrArg (fun w : BitVec 32 => w.toInt = (g.val : Int)) (congrArg (val_main_v60 (F := Ideal) (X3 m c) (X4 m c)) (funext fun a => by match a with | ⟨0, _⟩ => rfl)))
  · rw [val_main_v10_apply, val_main_cst_1_apply]
    exact ofBits_one_f32

/-- The kernel's energy sums are the reference's, -/
theorem es_eq (c : Dev nD) :
    (row0 (shardSum (F := Ideal) (shardArr m c)) : FVec Ideal S256 .f32) = val_main_v63 (F := Ideal) (X2 m c) (X3 m c) (X4 m c) := by
  funext i
  obtain ⟨g, rfl⟩ : ∃ g : Fin 256, i = ix1 g := ⟨i 0, eq_ix1 i⟩
  rw [row0_apply, kernel_bin, ref_es]
  exact Finset.sum_congr rfl fun j _ => if_pos rfl

/-- and so are its edge counts. -/
theorem cn_eq (c : Dev nD) :
    (row1 (shardSum (F := Ideal) (shardArr m c)) : FVec Ideal S256 .f32) = val_main_v66 (F := Ideal) (X3 m c) (X4 m c) := by
  funext i
  obtain ⟨g, rfl⟩ : ∃ g : Fin 256, i = ix1 g := ⟨i 0, eq_ix1 i⟩
  rw [row1_apply, kernel_bin, ref_cn]
  exact Finset.sum_congr rfl fun j _ => if_neg (by decide)

/-- The after-lines are the reference's last lines: the same operations on the scalar and the two vectors. -/
theorem tail2_eq (c : Dev nD) :
    tail2 (F := Ideal) (val_main_v5 (F := Ideal) (X0 m c) (X1 m c)) (val_main_v63 (F := Ideal) (X2 m c) (X3 m c) (X4 m c)) (val_main_v66 (F := Ideal) (X3 m c) (X4 m c))
      = val_main_v72 (F := Ideal) (X0 m c) (X1 m c) (X2 m c) (X3 m c) (X4 m c) := by
  unfold tail2 val_main_v72 val_main_v71 val_main_v70 val_main_v69 val_main_v68 val_main_v67 val_main_call4_v1 val_main_call4_v0
    val_main_cst_19 val_main_cst_20 val_main_cst_21 val_main_cst_22
  rfl

/-- THE RESULT: the kernel's after-lines on its scalar and its result array give the reference's result term. -/
theorem result_eq (c : Dev nD) :
    tailFn (F := Ideal) (V m c main_v5) (shardArr m c) = val_main_v72 (F := Ideal) (X0 m c) (X1 m c) (X2 m c) (X3 m c) (X4 m c) := by
  unfold tailFn
  rw [es_eq, cn_eq, Cert.Proof.Prefix.ce_eq]
  exact tail2_eq m c

end Cert.Proof.Bridge

end
-- ==== Proof.lean ====
/-
  A segment-sum loss, computed two ways.

  Both programs take logits f32[256,10], labels i32[256], node features x f32[100000,64], edges i32[2,1200000] and a
  node-to-graph map batch i32[100000], and return  ce + λ · mean_g (E[g] / max(1, N[g])),  where ce is the mean
  cross-entropy of the logits at the labels, and for each of the 256 graphs g, E[g] is the sum over the edges whose
  source node lies in g of  d⁻¹ᐟ²(row) d⁻¹ᐟ²(col) · ‖x[row] − x[col]‖²  and N[g] their number.
  The reference forms E and N with two scatter-adds (segment sums) over the per-edge segment id. The kernel packs
  (energy, id) per edge, walks the 1,200,000 edges in 2 shards × 75 tiles × 8000 rows, multiplies each tile's
  [8000, 2] values (energy | 1) by its [8000, 256] one-hot of the ids on the matrix unit, accumulates the [2, 256]
  products over a shard's tiles in a carried output block, and the host adds the two shards.
  Over the extended reals (floats exact, format changes the identity) the two agree for EVERY input: a tile row
  contributes to bin g exactly when its id is g, ids outside 0..255 are dropped by both, and re-tiling a sum needs
  only commutativity and associativity. The precondition (finite inputs) is not used by the value part.

  The frames of the two kernel programs are the generated frame certificates (the out block is carried from point to
  point, so the body is run once per case: first tile of a shard, any other tile); the reference's frame is its run
  read back with the result forgotten. The ideal pass rewrote nothing, so the idealization conjunct is `True`.
-/
import proofs.«418521_j395136991275_3_alg».proof.Defs
import proofs.«418521_j395136991275_3_alg».proof.Proof.Gen.Kernel
import proofs.«418521_j395136991275_3_alg».proof.Proof.Gen.Kernel.Skeleton
import proofs.«418521_j395136991275_3_alg».proof.Proof.Gen.Kernel.Launch
import proofs.«418521_j395136991275_3_alg».proof.Proof.Gen.Kernel.Points
import proofs.«418521_j395136991275_3_alg».proof.Proof.Gen.Kernel.Frame
import proofs.«418521_j395136991275_3_alg».proof.Proof.Gen.KernelIdeal
import proofs.«418521_j395136991275_3_alg».proof.Proof.Gen.KernelIdeal.Skeleton
import proofs.«418521_j395136991275_3_alg».proof.Proof.Gen.KernelIdeal.Launch
import proofs.«418521_j395136991275_3_alg».proof.Proof.Gen.KernelIdeal.Points
import proofs.«418521_j395136991275_3_alg».proof.Proof.Gen.KernelIdeal.Frame
import proofs.«418521_j395136991275_3_alg».proof.Proof.Gen.ReferenceIdeal
import proofs.«418521_j395136991275_3_alg».proof.Proof.Gen.Pre_finite_inputs
import proofs.«418521_j395136991275_3_alg».proof.Proof.RefRun
import proofs.«418521_j395136991275_3_alg».proof.Proof.RefRead
import proofs.«418521_j395136991275_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.PValue.run (F := Ideal) m ρ)

/-- The kernel's run, read: the result buffer ends at the reference's result term of the kernel's own arguments
    (the after-lines applied to the scalar and to the result array, which ends at the shard sums), the arguments
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v76)
            = Cert.ReferenceIdeal.PRead.val_main_v72 (F := Ideal) (Cert.Proof.Bridge.X0 m c) (Cert.Proof.Bridge.X1 m c)
                (Cert.Proof.Bridge.X2 m c) (Cert.Proof.Bridge.X3 m c) (Cert.Proof.Bridge.X4 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c =>
    ⟨((h c).2 Cert.KernelIdeal.main_v76 (Pipeline.mem_restRefs_of Cert.KernelIdeal.main_v76 (by decide) (by decide))).trans
        ((Cert.KernelIdeal.KValue.tail_eq m c).trans
          ((congrArg (Cert.KernelIdeal.KValue.tailFn (F := Ideal) (Cert.KernelIdeal.Gen.V m c Cert.KernelIdeal.main_v5)) (Cert.KernelIdeal.KValue.final_out m c)).trans
            (Cert.Proof.Bridge.result_eq m c))),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c)⟩)
    (Cert.KernelIdeal.Gen.run_main m ρ)

/-- Equal results: both runs end at the reference's result term of arguments that agree. -/
theorem algebraic : Cert.algebraic_KernelIdeal_ReferenceIdeal := by
  intro m ρ m' ρ' _ hagree
  refine ⟨fun c => Cert.ReferenceIdeal.PRead.val_main_v72 (F := Ideal) (Cert.Proof.Bridge.X0 m c) (Cert.Proof.Bridge.X1 m c)
      (Cert.Proof.Bridge.X2 m c) (Cert.Proof.Bridge.X3 m c) (Cert.Proof.Bridge.X4 m c), kernel_run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v72_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
